-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x3200000 32) (main_arg2 : FVec F S3200000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S64x64 : Shape := ⟨2, ![64, 64]⟩
abbrev S64 : Shape := ⟨1, ![64]⟩
abbrev S64x1 : Shape := ⟨2, ![64, 1]⟩
abbrev S100000x1 : Shape := ⟨2, ![100000, 1]⟩
abbrev S10000x64 : Shape := ⟨2, ![10000, 64]⟩
abbrev S10000x1 : Shape := ⟨2, ![10000, 1]⟩
abbrev S100000 : Shape := ⟨1, ![100000]⟩
abbrev S1x3200000 : Shape := ⟨2, ![1, 3200000]⟩
abbrev S_ : Shape := ⟨0, ![]⟩
abbrev S3200000x1 : Shape := ⟨2, ![3200000, 1]⟩
abbrev S1 : Shape := ⟨1, ![1]⟩
abbrev S20x5000 : Shape := ⟨2, ![20, 5000]⟩

abbrev nBuf : Space → Nat
  | .hbm => 63
  | .vmem => 7
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S100000x1, .f32⟩
  | .hbm, ⟨7, _⟩ => ⟨S100000x1, .f32⟩
  | .hbm, ⟨8, _⟩ => ⟨S100000, .f32⟩
  | .hbm, ⟨9, _⟩ => ⟨S100000, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000, .f32⟩
  | .hbm, ⟨49, _⟩ => ⟨S3200000, .f32⟩
  | .hbm, ⟨50, _⟩ => ⟨S_, .f32⟩
  | .hbm, ⟨51, _⟩ => ⟨S100000, .f32⟩
  | .hbm, ⟨52, _⟩ => ⟨S3200000x1, .i32⟩
  | .hbm, ⟨53, _⟩ => ⟨S100000, .f32⟩
  | .hbm, ⟨54, _⟩ => ⟨S100000, .f32⟩
  | .hbm, ⟨55, _⟩ => ⟨S100000, .f32⟩
  | .hbm, ⟨56, _⟩ => ⟨S100000, .f32⟩
  | .hbm, ⟨57, _⟩ => ⟨S1, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000, .f32⟩
  | .hbm, ⟨62, _⟩ => ⟨S20x5000, .f32⟩
  | .local _ .vmem, ⟨0, _⟩ => ⟨S10000x64, .f32⟩
  | .local _ .vmem, ⟨1, _⟩ => ⟨S10000x64, .f32⟩
  | .local _ .vmem, ⟨2, _⟩ => ⟨S64x1, .f32⟩
  | .local _ .vmem, ⟨3, _⟩ => ⟨S10000x1, .f32⟩
  | .local _ .vmem, ⟨4, _⟩ => ⟨S10000x1, .f32⟩
  | .local _ .vmem, ⟨5, _⟩ => ⟨S10000x1, .f32⟩
  | .local _ .vmem, ⟨6, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S64x64_S64x1_0_0 : S64x64.Slices ![0, 0] S64x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  slices_S10000x64_o0_0_S10000x1 : S10000x64.Slices ![0, 0] S10000x1
  shapeCasts_S100000x1_S100000 : S100000x1.ShapeCasts S100000
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  slices_S64_S1_0 : S64.Slices ![0] S1
  shapeCasts_S1_S_ : S1.ShapeCasts S_
  shapeCasts_S100000_S20x5000 : S100000.ShapeCasts S20x5000
  dot_S10000x64_S64x1_S10000x1_1_0_0_1_n_n_wf : DotDims.WF S10000x64 S64x1 S10000x1 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)

variable [Facts₀]

def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S10000x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S10000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S64x64 : Shape := ⟨2, ![64, 64]⟩
abbrev S64 : Shape := ⟨1, ![64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S20x5000 : Shape := ⟨2, ![20, 5000]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x64, .f32⟩
  | .hbm, ⟨48, _⟩ => ⟨S3300000x1, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x64, .f32⟩
  | .hbm, ⟨59, _⟩ => ⟨S3300000x64, .f32⟩
  | .hbm, ⟨60, _⟩ => ⟨S_, .f32⟩
  | .hbm, ⟨61, _⟩ => ⟨S100000x64, .f32⟩
  | .hbm, ⟨62, _⟩ => ⟨S3300000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S100000x1, .f32⟩
  | .hbm, ⟨68, _⟩ => ⟨S100000, .f32⟩
  | .hbm, ⟨69, _⟩ => ⟨S100000x1, .f32⟩
  | .hbm, ⟨70, _⟩ => ⟨S100000, .f32⟩
  | .hbm, ⟨71, _⟩ => ⟨S100000, .f32⟩
  | .hbm, ⟨72, _⟩ => ⟨S20x5000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x64_S100000x1_0_0 : S100000x64.Slices ![0, 0] S100000x1
  shapeCasts_S100000x1_S100000 : S100000x1.ShapeCasts S100000
  shapeCasts_S100000_S20x5000 : S100000.ShapeCasts S20x5000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelTail.lean ====
/-
  The host program that runs after the kernel region, as one function of the region's two results and the
  arguments of the entry point.

  The region leaves two columns: `h0c`, the first column of the dense transform `x · W`, and `x0c`, the first
  column of `x`. After it the host computes, over the N = 100000 nodes and the E = 3200000 edges
  (`row`, `col` the two rows of the edge list, `a` the edge weights):
    deg[n]  = Σ_{e : col e = n} a[e]  +  1                       (the weighted in-degree, the self loop's weight 1 added)
    dis[n]  = deg[n]^(-1/2) where deg[n] > 0, else 0
    val[e]  = ((dis · h0)[row e] · a[e]) · dis[col e]             (indices wrapped where negative, then clamped)
    out[n]  = Σ_{e : col e = n} val[e]  +  (h0[n] · dis[n]) · dis[n]  +  b[0]  −  x0[n]
  and lays `out` out as 20 rows of 5000. The scatter-adds take `col` as it is (an index outside the nodes
  drops its edge); the gathers take the wrapped index.
-/
import proofs.«406519_j395136991891_3_alg».proof.KernelIdeal
import Idealize.ShloMosaic.PureOps.Ideal
import Idealize.ShloMosaic.Lib.ValueIdx

noncomputable section

open scoped BigOperators

namespace Cert.KernelIdeal.Tail

open Idealize.ShloMosaic Cert.KernelIdeal Cert.KernelIdeal.Facts₀ Cert.KernelIdeal.Facts

variable {F : FTy → Type} [FloatOps F] [Cert.KernelIdeal.Facts]

/-- Row `r` of the edge list as a vector of E indices. -/
def srcRow (ei : IVec S2x3200000 32) : IVec S3200000 32 :=
  shapeCast _ (extractStridedSlice S1x3200000 ![0, 0] ei slices_S2x3200000_S1x3200000_0_0) shapeCasts_S1x3200000_S3200000
def dstRow (ei : IVec S2x3200000 32) : IVec S3200000 32 :=
  shapeCast _ (extractStridedSlice S1x3200000 ![1, 0] ei slices_S2x3200000_S1x3200000_1_0) shapeCasts_S1x3200000_S3200000

/-- A negative index counts from the end: add the number of nodes where the index is negative. -/
def wrap (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- A vector of E indices as the [E × 1] column an indexed operation takes. -/
def asColumn (v : IVec S3200000 32) : IVec S3200000x1 32 :=
  broadcastInDim S3200000x1 ![0] bcast_S3200000_S3200000x1_0 v

/-- The zero vector over the nodes. -/
def zeros : FVec F S100000 .f32 :=
  broadcastInDim S100000 ![] bcast_S_S100000 (constant S_ .f32 0x00000000#32)

/-- The weighted in-degree with the self loop's weight: the edge weights added up at their targets, plus one. -/
def deg (ei : IVec S2x3200000 32) (a : FVec F S3200000 .f32) : FVec F S100000 .f32 :=
  addf (Host.scatterAdd scatter_S100000_S3200000x1_S3200000_n_0_0_1 zeros (asColumn (dstRow ei)) a)
    (broadcastInDim S100000 ![] bcast_S_S100000 (constant S_ .f32 0x3F800000#32))

/-- The inverse square root of a degree vector where it is positive, zero elsewhere. -/
def invSqrt (d : FVec F S100000 .f32) : FVec F S100000 .f32 :=
  select (cmpf .ogt d zeros) (Host.rsqrt d)
    (broadcastInDim S100000 ![] bcast_S_S100000 (constant S_ .f32 0x00000000#32))

/-- The normalized messages of the edges, from the per-node factor `dis` and the transformed feature `h0`. -/
def messages (dis h0 : FVec F S100000 .f32) (ei : IVec S2x3200000 32) (a : FVec F S3200000 .f32) : FVec F S3200000 .f32 :=
  mulf (mulf (Host.gather gather_S100000_S3200000x1_S3200000_n_0_n_n_0_1_1 (mulf dis h0) (asColumn (wrap (srcRow ei)))) a)
    (Host.gather gather_S100000_S3200000x1_S3200000_n_0_n_n_0_1_1 dis (asColumn (wrap (dstRow ei))))

/-- The aggregated feature per node, before the reshape: the messages added up at their targets, the self loop's
    message, the bias, less the node's own first feature. -/
def perNode (h0 x0 : FVec F S100000 .f32) (ei : IVec S2x3200000 32) (a : FVec F S3200000 .f32) (b : FVec F S64 .f32) :
    FVec F S100000 .f32 :=
  subf
    (addf
      (addf (Host.scatterAdd scatter_S100000_S3200000x1_S3200000_n_0_0_1 zeros (asColumn (dstRow ei))
              (messages (invSqrt (deg ei a)) h0 ei a))
            (mulf (mulf h0 (invSqrt (deg ei a))) (invSqrt (deg ei a))))
      (broadcastInDim S100000 ![] bcast_S_S100000 (shapeCast _ (extractStridedSlice S1 ![0] b slices_S64_S1_0) shapeCasts_S1_S_)))
    x0

/-- The whole tail: the region's two columns flattened, the per-node result, laid out as 20 × 5000. -/
def tail (h0c x0c : FVec F S100000x1 .f32) (ei : IVec S2x3200000 32) (a : FVec F S3200000 .f32) (b : FVec F S64 .f32) :
    FVec F S20x5000 .f32 :=
  shapeCast _
    (perNode (shapeCast _ h0c shapeCasts_S100000x1_S100000) (shapeCast _ x0c shapeCasts_S100000x1_S100000) ei a b)
    shapeCasts_S100000_S20x5000

/-! ## What the region leaves, over the extended reals -/

open Idealize.ShloMosaic.ValueIdx in
/-- The first column of the dense transform: row `n` of `x` against the weight column, `Σ_k x[n, k] · w[k, 0]`. -/
def matvecCol (x : FVec Ideal S100000x64 .f32) (w : FVec Ideal S64x1 .f32) : FVec Ideal S100000x1 .f32 :=
  fun i => ∑ k : Fin 64, x (ix2 (⟨(i 0).val, (i 0).isLt⟩ : Fin 100000) k) * w (ix2 k (⟨(i 1).val, (i 1).isLt⟩ : Fin 1))

open Idealize.ShloMosaic.ValueIdx in
/-- The first column of `x`, kept as a column. -/
def firstCol (x : FVec Ideal S100000x64 .f32) : FVec Ideal S100000x1 .f32 :=
  fun i => x (ix2 (⟨(i 0).val, (i 0).isLt⟩ : Fin 100000) (⟨(i 1).val, Nat.lt_of_lt_of_le (i 1).isLt (by decide)⟩ : Fin 64))

end Cert.KernelIdeal.Tail

end
-- ==== Proof.KernelValue.lean ====
/-
  The kernel at the ideal instance, read: the result buffer after every fair run.

  The region's grid has ten points. At point `t` the body multiplies rows `[10000 t, 10000 (t+1))` of `x` by the first
  column `w₀` of `W` (one contraction over the 64 features, accumulated from zero) and keeps the rows' first feature; the
  two write-backs tile the two `[100000 × 1]` results, which therefore end at `x · w₀` and at the first column of `x`.
  The host lines after the region are then read in three stretches — up to the degree test, the where, and the rest —
  each from arbitrary buffer contents, and composed: the result buffer holds `Tail.tail` of the two columns and of the
  edge list, the edge weights and the bias as launched.
-/
import proofs.«406519_j395136991891_3_alg».proof.Proof.KernelTail
import proofs.«406519_j395136991891_3_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run

noncomputable section
open scoped BigOperators
namespace Cert.KernelIdeal.HandValue
open Idealize.ShloMosaic Idealize.ShloMosaic.TcCoe Idealize.SL.Sem Cert.KernelIdeal Cert.KernelIdeal.Gen Cert.KernelIdeal.Facts₀ Cert.KernelIdeal.Facts
open Idealize.ShloMosaic.ValueIdx
open Idealize.ShloMosaic.Pipeline (Dat)

/-! ## The body's two stored values at an index, over the extended reals -/

theorem lhs_blockDot_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_blockDot_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_blockDot_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_blockDot_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The product of a block of rows with the weight column, at row `p`: the row against the column. -/
theorem blockProduct_apply (x0 : Vec Ideal S10000x64 .f32) (x1 : Vec Ideal S64x1 .f32) (p : Fin 10000) (q : Fin 1) :
    k0_pay1 (F := Ideal) x0 x1 (ix2 p q) = ∑ k : Fin 64, x0 (ix2 p k) * x1 (ix2 k q) := by
  unfold k0_pay1
  rw [shapeCast_self]
  refine (Ideal.matmul_constant_zero_apply dot_S10000x64_S64x1_S10000x1_1_0_0_1_n_n none _ _ (ix2 p q)).trans ?_
  rw [← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx (ix2 p q) ((ValueIdx.contrEquiv1 dot_S10000x64_S64x1_S10000x1_1_0_0_1_n_n 64 rfl rfl).symm k) = ix2 p k := funext fun a => Fin.ext (by
    match a with
    | ⟨0, _⟩ => exact lhs_blockDot_0 _ _
    | ⟨1, _⟩ => exact (lhs_blockDot_1 _ _).trans hk)
  have er : dot_S10000x64_S64x1_S10000x1_1_0_0_1_n_n.rhsIdx (ix2 p q) ((ValueIdx.contrEquiv1 dot_S10000x64_S64x1_S10000x1_1_0_0_1_n_n 64 rfl rfl).symm k) = ix2 k q := funext fun a => Fin.ext (by
    match a with
    | ⟨0, _⟩ => exact (rhs_blockDot_0 _ _).trans hk
    | ⟨1, _⟩ => exact rhs_blockDot_1 _ _)
  rw [el, er]
  rfl

/-- The slice of a block of rows down to its first column, at row `p`. -/
theorem blockFirstCol_apply (x0 : Vec Ideal S10000x64 .f32) (p : Fin 10000) (q : Fin 1) :
    k0_pay2 (F := Ideal) x0 (ix2 p q) = x0 (ix2 p (⟨q.val, by omega⟩ : Fin 64)) := by
  unfold k0_pay2
  refine extractStridedSlice_apply _ x0 _ (ix2 p q) (ix2 p (⟨q.val, by omega⟩ : Fin 64)) fun a => ?_
  match a with
  | ⟨0, _⟩ => show p.val = 0 + p.val; omega
  | ⟨1, _⟩ => show q.val = 0 + q.val; omega

theorem zeroOffsets : (![0, 0] : Fin 2 → Nat) = fun _ => 0 := funext fun a => by fin_cases a <;> rfl

/-- What the body leaves in the first result's staging buffer is the block product of what it loaded. -/
theorem out0_2_eq {F : FTy → Type} [FloatOps F] (x0 : Vec F S10000x64 .f32) (x1 : Vec F S64x1 .f32) : out0_2 x0 x1 = k0_pay1 x0 x1 := by
  unfold out0_2
  rw [View.canon_unit_zero zeroOffsets]
  simp only [View.ld_unit_zero (S := S10000x64) zeroOffsets, View.ld_unit_zero (S := S64x1) zeroOffsets]

/-- What it leaves in the second's is the block's first column. -/
theorem out0_3_eq {F : FTy → Type} [FloatOps F] (x0 : Vec F S10000x64 .f32) (x1 : Vec F S64x1 .f32) : out0_3 x0 x1 = k0_pay2 x0 := by
  unfold out0_3
  rw [View.canon_unit_zero zeroOffsets]
  simp only [View.ld_unit_zero (S := S10000x64) zeroOffsets]

section Blocks

/-! ## From the blocks to the two result arrays -/

variable (m : (ℓ : Loc nD τ sig) → Buf (Elt Ideal) ℓ) (ρ : Dev nD → PrngReg)

/-- The block product of a block of rows of `X` with the column `w` is the rows' part of `X · w`: rows
    `b · 10000 + p` of the whole product, for the block `b`. -/
theorem blockProduct_rows (X : FVec Ideal S100000x64 .f32) (w : FVec Ideal S64x1 .f32)
    (x0 : Vec Ideal S10000x64 .f32) (x1 : Vec Ideal S64x1 .f32) (p : Fin 10000) (q : Fin 1) (r : Fin 100000)
    (h0 : ∀ k : Fin 64, x0 (ix2 p k) = X (ix2 r k)) (h1 : ∀ k : Fin 64, x1 (ix2 k q) = w (ix2 k q))
    (i : S100000x1.Idx) (hi0 : (i 0).val = r.val) (hi1 : (i 1).val = q.val) :
    k0_pay1 (F := Ideal) x0 x1 (ix2 p q) = Tail.matvecCol X w i := by
  rw [blockProduct_apply]
  unfold Tail.matvecCol
  refine Finset.sum_congr rfl fun k _ => ?_
  rw [h0 k, h1 k]
  have e0 : (⟨(i 0).val, (i 0).isLt⟩ : Fin 100000) = r := Fin.ext hi0
  have e1 : (⟨(i 1).val, (i 1).isLt⟩ : Fin 1) = q := Fin.ext hi1
  rw [e0, e1]

/-- The first column of a block of rows of `X` is the rows' part of the first column of `X`. -/
theorem blockFirstCol_rows (X : FVec Ideal S100000x64 .f32) (x0 : Vec Ideal S10000x64 .f32) (p : Fin 10000) (q : Fin 1) (r : Fin 100000)
    (h0 : ∀ k : Fin 64, x0 (ix2 p k) = X (ix2 r k))
    (i : S100000x1.Idx) (hi0 : (i 0).val = r.val) (hi1 : (i 1).val = q.val) :
    k0_pay2 (F := Ideal) x0 (ix2 p q) = Tail.firstCol X i := by
  rw [blockFirstCol_apply, h0]
  unfold Tail.firstCol
  have e0 : (⟨(i 0).val, (i 0).isLt⟩ : Fin 100000) = r := Fin.ext hi0
  have e1 : (⟨(i 1).val, Nat.lt_of_lt_of_le (i 1).isLt (by decide)⟩ : Fin 64) = ⟨q.val, by omega⟩ := Fin.ext hi1
  rw [e0, e1]

/-- The printed index maps over the grid: the row windows sit at block `t` of the rows, the weight column at its one block. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The staged block of `x` at point `t` is rows `10000 t …` of `x` as the region finds it. -/
theorem rowsBlock_apply (c : Dev nD) (t : Fin cfg0.N) (p : Fin 10000) (k : Fin 64) (r : Fin 100000) (hr : r.val = t.val * 10000 + p.val) :
    (iblk m c 0 t : Vec Ideal S10000x64 .f32) (ix2 p k) = (V m c main_arg0 : FVec Ideal S100000x64 .f32) (ix2 r k) := by
  obtain ⟨e0, e1, -⟩ := blockIndices t
  unfold iblk
  rw [View.read_apply]
  show V m c main_arg0 _ = V m c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The staged weight column at any point is the whole column. -/
theorem colBlock_apply (c : Dev nD) (t : Fin cfg0.N) (k : Fin 64) (q : Fin 1) :
    (iblk m c 1 t : Vec Ideal S64x1 .f32) (ix2 k q) = (V m c main_v0 : FVec Ideal S64x1 .f32) (ix2 k q) := by
  obtain ⟨-, -, e0, e1, -⟩ := blockIndices t
  unfold iblk
  rw [View.read_apply]
  show V m c main_v0 _ = V m c main_v0 _
  congr 1
  funext a
  apply Fin.ext
  match a with
  | ⟨0, _⟩ => show win0_1.index t (0 : Fin 2) * 64 + 1 * k.val = k.val; rw [e0]; omega
  | ⟨1, _⟩ => show win0_1.index t (1 : Fin 2) * 1 + 1 * q.val = q.val; rw [e1]; omega

/-- What point `t` writes back of the first result is block `t` of `x · w₀`. -/
theorem flushedProduct_eq (c : Dev nD) (t : Fin cfg0.N) :
    (dats m 0 c).flushed 2 t = ((cfg0.win 2).blk t).view.read (Elt Ideal) (Tail.matvecCol (V m c main_arg0) (V m c main_v0)) := by
  show (cfg0.win 2).cut (grid0.coords t) ((dats m 0 c).after 2 t) = _
  rw [after0_2, out0_2_eq]
  obtain ⟨-, -, -, -, e0, e1, -⟩ := blockIndices t
  funext j
  obtain ⟨p, q, rfl⟩ : ∃ (p : Fin 10000) (q : Fin 1), j = ix2 p q := ⟨j 0, j 1, eq_ix2 j⟩
  have hr : t.val * 10000 + p.val < 100000 := by
    have hN : cfg0.N = 10 := N_0
    have ht := t.isLt
    have hp := p.isLt
    omega
  show k0_pay1 (F := Ideal) (iblk m c 0 t) (iblk m c 1 t) (ix2 p q) = Tail.matvecCol (V m c main_arg0) (V m c main_v0) (((cfg0.win 2).blk t).view.emb (ix2 p q))
  refine blockProduct_rows (V m c main_arg0) (V m c main_v0)
    (iblk m c 0 t) (iblk m c 1 t) p q ⟨t.val * 10000 + p.val, hr⟩
    (fun k => rowsBlock_apply m c t p k ⟨t.val * 10000 + p.val, hr⟩ rfl) (fun k => colBlock_apply m c t k q)
    (((cfg0.win 2).blk t).view.emb (ix2 p q)) ?_ ?_
  · show win0_2.index t (0 : Fin 2) * 10000 + 1 * p.val = t.val * 10000 + p.val; rw [e0]; omega
  · show win0_2.index t (1 : Fin 2) * 1 + 1 * q.val = q.val; rw [e1]; omega

/-- What point `t` writes back of the second result is block `t` of the first column of `x`. -/
theorem flushedFirstCol_eq (c : Dev nD) (t : Fin cfg0.N) :
    (dats m 0 c).flushed 3 t = ((cfg0.win 3).blk t).view.read (Elt Ideal) (Tail.firstCol (V m c main_arg0)) := by
  show (cfg0.win 3).cut (grid0.coords t) ((dats m 0 c).after 3 t) = _
  rw [after0_3, out0_3_eq]
  obtain ⟨-, -, -, -, -, -, e0, e1⟩ := blockIndices t
  funext j
  obtain ⟨p, q, rfl⟩ : ∃ (p : Fin 10000) (q : Fin 1), j = ix2 p q := ⟨j 0, j 1, eq_ix2 j⟩
  have hr : t.val * 10000 + p.val < 100000 := by
    have hN : cfg0.N = 10 := N_0
    have ht := t.isLt
    have hp := p.isLt
    omega
  show k0_pay2 (F := Ideal) (iblk m c 0 t) (ix2 p q) = Tail.firstCol (V m c main_arg0) (((cfg0.win 3).blk t).view.emb (ix2 p q))
  refine blockFirstCol_rows (V m c main_arg0) (iblk m c 0 t) p q ⟨t.val * 10000 + p.val, hr⟩
    (fun k => rowsBlock_apply m c t p k ⟨t.val * 10000 + p.val, hr⟩ rfl)
    (((cfg0.win 3).blk t).view.emb (ix2 p q)) ?_ ?_
  · show win0_3.index t (0 : Fin 2) * 10000 + 1 * p.val = t.val * 10000 + p.val; rw [e0]; omega
  · show win0_3.index t (1 : Fin 2) * 1 + 1 * q.val = q.val; rw [e1]; omega

/-- A row of a result is in point `t`'s block iff each coordinate is in the block's range on its axis. -/
theorem mem_productBlock (t : Fin cfg0.N) (i : S100000x1.Idx) :
    i ∈ ((cfg0.win 2).blk t).view.set ↔ ∀ a : Fin 2, win0_2.index t a * S10000x1.size a ≤ (i a).val ∧ (i a).val < win0_2.index t a * S10000x1.size a + S10000x1.size a := by
  show i ∈ ((View.whole main_v1_0).slice (win0_2.rect t)).set ↔ _
  rw [View.set_slice_whole, Rect.mem_set_unit]
  exact Iff.rfl
theorem mem_firstColBlock (t : Fin cfg0.N) (i : S100000x1.Idx) :
    i ∈ ((cfg0.win 3).blk t).view.set ↔ ∀ a : Fin 2, win0_3.index t a * S10000x1.size a ≤ (i a).val ∧ (i a).val < win0_3.index t a * S10000x1.size a + S10000x1.size a := by
  show i ∈ ((View.whole main_v1_1).slice (win0_3.rect t)).set ↔ _
  rw [View.set_slice_whole, Rect.mem_set_unit]
  exact Iff.rfl

/-- The point whose block holds row `r`: `r / 10000`. -/
def pointOfRow (i : S100000x1.Idx) : Fin cfg0.N :=
  ⟨(i 0).val / 10000, by rw [show cfg0.N = 10 from N_0]; have : (i 0).val < 100000 := (i 0).isLt; omega⟩

/-- The first result after the run: `x · w₀`, the ten blocks of rows covering it. -/
theorem productArray (c : Dev nD) : (dats m 0 c).arrAt 2 cfg0.N = Tail.matvecCol (V m c main_arg0) (V m c main_v0) :=
  (dats m 0 c).arrAt_eq_of_cover 2 _ (fun t _ => flushedProduct_eq m c t) fun i => ⟨pointOfRow i, flush0_2 _, by
    obtain ⟨-, -, -, -, e0, e1, -⟩ := blockIndices (pointOfRow i)
    have h0 : (i 0).val < 100000 := (i 0).isLt
    have h1 : (i 1).val < 1 := (i 1).isLt
    have ht : (pointOfRow i).val = (i 0).val / 10000 := rfl
    rw [mem_productBlock]
    intro a
    match a with
    | ⟨0, _⟩ => show win0_2.index (pointOfRow i) (0 : Fin 2) * 10000 ≤ (i 0).val ∧ (i 0).val < win0_2.index (pointOfRow i) (0 : Fin 2) * 10000 + 10000; rw [e0, ht]; omega
    | ⟨1, _⟩ => show win0_2.index (pointOfRow i) (1 : Fin 2) * 1 ≤ (i 1).val ∧ (i 1).val < win0_2.index (pointOfRow i) (1 : Fin 2) * 1 + 1; rw [e1]; omega⟩

/-- The second result after the run: the first column of `x`. -/
theorem firstColArray (c : Dev nD) : (dats m 0 c).arrAt 3 cfg0.N = Tail.firstCol (V m c main_arg0) :=
  (dats m 0 c).arrAt_eq_of_cover 3 _ (fun t _ => flushedFirstCol_eq m c t) fun i => ⟨pointOfRow i, flush0_3 _, by
    obtain ⟨-, -, -, -, -, -, e0, e1⟩ := blockIndices (pointOfRow i)
    have h0 : (i 0).val < 100000 := (i 0).isLt
    have h1 : (i 1).val < 1 := (i 1).isLt
    have ht : (pointOfRow i).val = (i 0).val / 10000 := rfl
    rw [mem_firstColBlock]
    intro a
    match a with
    | ⟨0, _⟩ => show win0_3.index (pointOfRow i) (0 : Fin 2) * 10000 ≤ (i 0).val ∧ (i 0).val < win0_3.index (pointOfRow i) (0 : Fin 2) * 10000 + 10000; rw [e0, ht]; omega
    | ⟨1, _⟩ => show win0_3.index (pointOfRow i) (1 : Fin 2) * 1 ≤ (i 1).val ∧ (i 1).val < win0_3.index (pointOfRow i) (1 : Fin 2) * 1 + 1; rw [e1]; omega⟩

/-- The weight column the region finds is the slice `W[0:64, 0:1]` of the launched `W`: the one host line before the region. -/
theorem weightColumn_eq (c : Dev nD) :
    (V m c main_v0 : FVec Ideal S64x1 .f32) = extractStridedSlice S64x1 ![0, 0] (m ((c.tc : Thread nD τ).loc main_arg3)) Cert.KernelIdeal.Facts₀.slices_S64x64_S64x1_0_0 := by
  show StableHlo.after hostOps0 (fun b => m (c, b)) (Proc.devRef .tc main_v0) = _
  after_results

/-! ## The host lines after the region -/

/-- Running a concatenation of host lines is running the second list from what the first leaves. -/
theorem after_append' (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => exact ih (op.result V)

/-- After the first stretch: the test `deg > 0`, -/
theorem degPositive_after (V : Valuation τ sig (Elt Ideal)) (ei : IVec S2x3200000 32) (e3 : V (Proc.devRef .tc main_arg1) = ei) (a : FVec Ideal S3200000 .f32) (e4 : V (Proc.devRef .tc main_arg2) = a) :
    StableHlo.after (hostOps1 : List (HloOp τ sig (Elt Ideal))) V (Proc.devRef .tc main_v14) = cmpf .ogt (Tail.deg ei a) (Tail.zeros (F := Ideal)) := by
  subst_vars
  simp only [hostOps1]
  after_results_simp
  rfl
/-- the inverse square roots of the degrees, -/
theorem degRsqrt_after (V : Valuation τ sig (Elt Ideal)) (ei : IVec S2x3200000 32) (e3 : V (Proc.devRef .tc main_arg1) = ei) (a : FVec Ideal S3200000 .f32) (e4 : V (Proc.devRef .tc main_arg2) = a) :
    StableHlo.after (hostOps1 : List (HloOp τ sig (Elt Ideal))) V (Proc.devRef .tc main_v15) = Host.rsqrt (Tail.deg ei a) := by
  subst_vars
  simp only [hostOps1]
  after_results_simp
  rfl
/-- and the zero the where falls back to. -/
theorem whereZero_after (V : Valuation τ sig (Elt Ideal)) :
    StableHlo.after (hostOps1 : List (HloOp τ sig (Elt Ideal))) V (Proc.devRef .tc main_cst_2) = constant (F := Ideal) S_ .f32 0x00000000#32 := by
  simp only [hostOps1]
  after_results_simp

/-- The three lines of the where: from any contents, the selected vector. -/
theorem whereStretch (V : Valuation τ sig (Elt Ideal)) (c14 : IVec S100000 1) (r15 : FVec Ideal S100000 .f32) (z : FVec Ideal S_ .f32)
    (h14 : V (Proc.devRef .tc main_v14) = c14) (h15 : V (Proc.devRef .tc main_v15) = r15) (hz : V (Proc.devRef .tc main_cst_2) = z) :
    StableHlo.after (hostOps1_1 : List (HloOp τ sig (Elt Ideal))) V (Proc.devRef .tc main_v16)
      = select c14 r15 (broadcastInDim S100000 ![] Cert.KernelIdeal.Facts₀.bcast_S_S100000 z) := by
  subst_vars
  simp only [hostOps1_1]
  after_results_simp
  rfl

/-- After the first two stretches the normalising factor is `deg^(-1/2)` where the degree is positive, zero elsewhere. -/
theorem normFactor_after (V : Valuation τ sig (Elt Ideal)) (ei : IVec S2x3200000 32) (e3 : V (Proc.devRef .tc main_arg1) = ei) (a : FVec Ideal S3200000 .f32) (e4 : V (Proc.devRef .tc main_arg2) = a) :
    StableHlo.after (hostOps1 ++ hostOps1_1 : List (HloOp τ sig (Elt Ideal))) V (Proc.devRef .tc main_v16) = Tail.invSqrt (Tail.deg ei a) := by
  rw [after_append']
  exact whereStretch _ _ _ _ (degPositive_after V ei e3 a e4) (degRsqrt_after V ei e3 a e4) (whereZero_after V)

/-- After the first two stretches: the two result columns flattened, the two rows of the edge list, -/
theorem flatProduct_after (V : Valuation τ sig (Elt Ideal)) (h0c : FVec Ideal S100000x1 .f32) (e1 : V (Proc.devRef .tc main_v1_0) = h0c) :
    StableHlo.after (hostOps1 ++ hostOps1_1 : List (HloOp τ sig (Elt Ideal))) V (Proc.devRef .tc main_v2) = shapeCast S100000 h0c Cert.KernelIdeal.Facts₀.shapeCasts_S100000x1_S100000 := by
  subst_vars
  simp only [hostOps1, hostOps1_1, List.cons_append, List.nil_append]
  after_results_simp
  rfl
theorem flatFirstCol_after (V : Valuation τ sig (Elt Ideal)) (x0c : FVec Ideal S100000x1 .f32) (e2 : V (Proc.devRef .tc main_v1_1) = x0c) :
    StableHlo.after (hostOps1 ++ hostOps1_1 : List (HloOp τ sig (Elt Ideal))) V (Proc.devRef .tc main_v3) = shapeCast S100000 x0c Cert.KernelIdeal.Facts₀.shapeCasts_S100000x1_S100000 := by
  subst_vars
  simp only [hostOps1, hostOps1_1, List.cons_append, List.nil_append]
  after_results_simp
  rfl
theorem srcRow_after (V : Valuation τ sig (Elt Ideal)) (ei : IVec S2x3200000 32) (e3 : V (Proc.devRef .tc main_arg1) = ei) :
    StableHlo.after (hostOps1 ++ hostOps1_1 : List (HloOp τ sig (Elt Ideal))) V (Proc.devRef .tc main_v5) = Tail.srcRow ei := by
  subst_vars
  simp only [hostOps1, hostOps1_1, List.cons_append, List.nil_append]
  after_results_simp
  rfl
theorem dstRow_after (V : Valuation τ sig (Elt Ideal)) (ei : IVec S2x3200000 32) (e3 : V (Proc.devRef .tc main_arg1) = ei) :
    StableHlo.after (hostOps1 ++ hostOps1_1 : List (HloOp τ sig (Elt Ideal))) V (Proc.devRef .tc main_v7) = Tail.dstRow ei := by
  subst_vars
  simp only [hostOps1, hostOps1_1, List.cons_append, List.nil_append]
  after_results_simp
  rfl
/-- and the edge weights and the bias as launched. -/
theorem weights_after (V : Valuation τ sig (Elt Ideal)) (a : FVec Ideal S3200000 .f32) (e4 : V (Proc.devRef .tc main_arg2) = a) :
    StableHlo.after (hostOps1 ++ hostOps1_1 : List (HloOp τ sig (Elt Ideal))) V (Proc.devRef .tc main_arg2) = a := by
  simp only [hostOps1, hostOps1_1, List.cons_append, List.nil_append]
  after_results_simp
  exact e4
theorem bias_after (V : Valuation τ sig (Elt Ideal)) (b : FVec Ideal S64 .f32) (e5 : V (Proc.devRef .tc main_arg4) = b) :
    StableHlo.after (hostOps1 ++ hostOps1_1 : List (HloOp τ sig (Elt Ideal))) V (Proc.devRef .tc main_arg4) = b := by
  simp only [hostOps1, hostOps1_1, List.cons_append, List.nil_append]
  after_results_simp
  exact e5

/-- The per-node result as a function of the normalising factor and the two index rows: the messages added up at their
    targets, the self loop's message, the bias, less the node's own first feature. -/
def perNodeOf (dis h0 x0 : FVec Ideal S100000 .f32) (src dst : IVec S3200000 32) (a : FVec Ideal S3200000 .f32) (b : FVec Ideal S64 .f32) :
    FVec Ideal S100000 .f32 :=
  subf
    (addf
      (addf (Host.scatterAdd (F := Ideal) scatter_S100000_S3200000x1_S3200000_n_0_0_1 Tail.zeros (Tail.asColumn dst)
              (mulf (mulf (Host.gather gather_S100000_S3200000x1_S3200000_n_0_n_n_0_1_1 (mulf dis h0) (Tail.asColumn (Tail.wrap src))) a)
                (Host.gather gather_S100000_S3200000x1_S3200000_n_0_n_n_0_1_1 dis (Tail.asColumn (Tail.wrap dst)))))
            (mulf (mulf h0 dis) dis))
      (broadcastInDim S100000 ![] Cert.KernelIdeal.Facts₀.bcast_S_S100000 (shapeCast S_ (extractStridedSlice S1 ![0] b Cert.KernelIdeal.Facts₀.slices_S64_S1_0) Cert.KernelIdeal.Facts₀.shapeCasts_S1_S_)))
    x0

/-- The tail is that function at the factor `invSqrt (deg)`, the flattened columns and the two rows, laid out as 20 × 5000. -/
theorem tail_eq_perNodeOf (h0c x0c : FVec Ideal S100000x1 .f32) (ei : IVec S2x3200000 32) (a : FVec Ideal S3200000 .f32) (b : FVec Ideal S64 .f32) :
    Tail.tail h0c x0c ei a b = shapeCast S20x5000
      (perNodeOf (Tail.invSqrt (Tail.deg ei a)) (shapeCast S100000 h0c Cert.KernelIdeal.Facts₀.shapeCasts_S100000x1_S100000) (shapeCast S100000 x0c Cert.KernelIdeal.Facts₀.shapeCasts_S100000x1_S100000)
        (Tail.srcRow ei) (Tail.dstRow ei) a b) Cert.KernelIdeal.Facts₀.shapeCasts_S100000_S20x5000 := rfl

/-- The last stretch, from any contents: the result buffer from the seven buffers it reads. -/
theorem lastStretch (V : Valuation τ sig (Elt Ideal)) (dis h0 x0 : FVec Ideal S100000 .f32) (src dst : IVec S3200000 32) (a : FVec Ideal S3200000 .f32) (b : FVec Ideal S64 .f32)
    (hd : V (Proc.devRef .tc main_v16) = dis) (hh : V (Proc.devRef .tc main_v2) = h0) (hx : V (Proc.devRef .tc main_v3) = x0)
    (hs : V (Proc.devRef .tc main_v5) = src) (ht : V (Proc.devRef .tc main_v7) = dst)
    (ha : V (Proc.devRef .tc main_arg2) = a) (hb : V (Proc.devRef .tc main_arg4) = b) :
    StableHlo.after (hostOps1_2 : List (HloOp τ sig (Elt Ideal))) V (Proc.devRef .tc main_v45)
      = shapeCast S20x5000 (perNodeOf dis h0 x0 src dst a b) Cert.KernelIdeal.Facts₀.shapeCasts_S100000_S20x5000 := by
  subst_vars
  simp only [hostOps1_2]
  after_results_simp
  rfl

/-- The host lines after the region, run from ANY contents of the buffers: the result buffer ends at the tail of the two
    result columns and of the three arguments it reads, as those contents have them. -/
theorem tail_of_contents (Vl : Valuation τ sig (Elt Ideal))
    (h0c x0c : FVec Ideal S100000x1 .f32) (ei : IVec S2x3200000 32) (a : FVec Ideal S3200000 .f32) (b : FVec Ideal S64 .f32)
    (e1 : Vl (Proc.devRef .tc main_v1_0) = h0c) (e2 : Vl (Proc.devRef .tc main_v1_1) = x0c)
    (e3 : Vl (Proc.devRef .tc main_arg1) = ei) (e4 : Vl (Proc.devRef .tc main_arg2) = a) (e5 : Vl (Proc.devRef .tc main_arg4) = b) :
    StableHlo.after ([hostOps1, hostOps1_1, hostOps1_2] : List (List (HloOp τ sig (Elt Ideal)))).flatten Vl (Proc.devRef .tc main_v45)
      = Tail.tail h0c x0c ei a b := by
  have hl : ([hostOps1, hostOps1_1, hostOps1_2] : List (List (HloOp τ sig (Elt Ideal)))).flatten = (hostOps1 ++ hostOps1_1) ++ hostOps1_2 := by
    simp only [List.flatten_cons, List.flatten_nil, List.append_nil, List.append_assoc]
  rw [hl, after_append', tail_eq_perNodeOf]
  exact lastStretch _ _ _ _ _ _ _ _ (normFactor_after Vl ei e3 a e4) (flatProduct_after Vl h0c e1) (flatFirstCol_after Vl x0c e2)
    (srcRow_after Vl ei e3) (dstRow_after Vl ei e3) (weights_after Vl a e4) (bias_after Vl b e5)

/-- After the region the five buffers the tail reads hold the two result arrays and the launched arguments. -/
theorem tail_eq (c : Dev nD) :
    Pipeline.afterTail₀ cfgs (dats m) 0 (V0 m) [hostOps1, hostOps1_1, hostOps1_2] c main_v45
      = Tail.tail (F := Ideal) ((dats m 0 c).arrAt 2 cfg0.N) ((dats m 0 c).arrAt 3 cfg0.N)
          (m ((c.tc : Thread nD τ).loc main_arg1)) (m ((c.tc : Thread nD τ).loc main_arg2)) (m ((c.tc : Thread nD τ).loc main_arg4)) := by
  unfold Pipeline.afterTail₀
  exact tail_of_contents _ _ _ _ _ _
    (Pipeline.withArrays_arr _ launch0.win.arr_inj c _ _ 2)
    (Pipeline.withArrays_arr _ launch0.win.arr_inj c _ _ 3)
    ((Pipeline.withArrays_of_ne _ c (V0 m c) _ main_arg1 (by exact (by decide : ∀ w, Pipeline.arrRef spec0 w ≠ main_arg1))).trans (V_main_arg1 m c))
    ((Pipeline.withArrays_of_ne _ c (V0 m c) _ main_arg2 (by exact (by decide : ∀ w, Pipeline.arrRef spec0 w ≠ main_arg2))).trans (V_main_arg2 m c))
    ((Pipeline.withArrays_of_ne _ c (V0 m c) _ main_arg4 (by exact (by decide : ∀ w, Pipeline.arrRef spec0 w ≠ main_arg4))).trans (V_main_arg4 m c))

end Blocks

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45)
        = Tail.tail (Tail.matvecCol (m ((c.tc : Thread nD τ).loc main_arg0))
              (extractStridedSlice S64x1 ![0, 0] (m ((c.tc : Thread nD τ).loc main_arg3)) Cert.KernelIdeal.Facts₀.slices_S64x64_S64x1_0_0))
            (Tail.firstCol (m ((c.tc : Thread nD τ).loc main_arg0)))
            (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h c).2 main_v45 (Pipeline.mem_restRefs_of main_v45 (by decide) (by decide))).trans
        ((tail_eq m c).trans (by rw [productArray m c, firstColArray m c, V_main_arg0 m c, weightColumn_eq m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HandValue
end
-- ==== Proof.LibTakeScatter.lean ====
/-
  The take-shaped indexed operations of a graph layer, read at one element, over the extended reals.

  A scatter-add whose scatter indices are an [M × 1] column of row numbers adds update row `j` to operand row
  `idx[j]` (read signed, NOT clamped: a row number outside the operand drops the update). At one element the
  result is therefore the operand's element plus the sum, over the update rows `j` whose row number is that
  element's row, of the update's element. A gather with such a column of start indices reads operand row
  `idx[j]` read signed and CLAMPED into the operand. The last lemma splits such a sum when the update rows are
  `E` rows followed by `N` rows numbered `0 … N − 1` (self loops appended to an edge list): the second part
  contributes exactly the one row whose number is asked for.
-/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.ValueIdxRank1

noncomputable section

open scoped BigOperators

namespace Cert.Lib.TakeScatter

open Idealize.ShloMosaic Idealize.ShloMosaic.ValueIdx Idealize.ShloMosaic.StableHlo.Predicate

/-- Rank 1: the update at index `J` lands on operand element `n` exactly when its row number, read signed, is `n`. -/
theorem resultIdx_rank1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (J : (⟨1, ![M]⟩ : Shape).Idx) (n : Fin N) :
    d.resultIdx? J idx = some (ix1 n) ↔ (idx (ixP (J 0))).toInt = (n.val : Int) := by
  have hm : (0 : Fin 1) ∈ d.scatterDimsToOperandDims := by rw [hsd]; exact List.mem_singleton.mpr rfl
  have hk : (0 : Fin 1) ∉ d.sKept := by
    simp [ScatterDims.sKept, Shape.kept, hiw]
  have hwin : d.window J 0 = 0 := by unfold ScatterDims.window; rw [dif_neg hk]
  have hsi : d.siIdx J ⟨d.scatterDimsToOperandDims.idxOf 0, List.idxOf_lt_length_iff.2 hm⟩ = ixP (J 0) := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (J X).val = (J 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : d.start J idx 0 = (idx (ixP (J 0))).toInt := by
    unfold ScatterDims.start; rw [dif_pos hm, hsi]; rfl
  have hsw : ∀ a : Fin 1, d.start J idx a + (d.window J a : Int) = (idx (ixP (J 0))).toInt := by
    intro a
    have ha : a = 0 := Subsingleton.elim _ _
    subst ha
    rw [hstart, hwin]; simp
  have hsz : ∀ a : Fin 1, (⟨1, ![N]⟩ : Shape).size a = N := by
    intro a
    have ha : a = 0 := Subsingleton.elim _ _
    subst ha; rfl
  unfold ScatterDims.resultIdx?
  split
  · rename_i h
    rw [Option.some.injEq]
    constructor
    · intro e
      have e0 : (d.start J idx 0 + (d.window J 0 : Int)).toNat = n.val := congrArg Fin.val (congrFun e 0)
      have h0 := (h 0).1
      have := hsw 0
      omega
    · intro e
      funext a
      have ha : a = 0 := Subsingleton.elim _ _
      subst ha
      apply Fin.ext
      show (d.start J idx 0 + (d.window J 0 : Int)).toNat = n.val
      have := hsw 0
      omega
  · rename_i h
    constructor
    · intro e; cases e
    · intro e
      exfalso; apply h
      intro a
      rw [hsw a, hsz a, e]
      have := n.isLt
      constructor <;> omega

/-- A rank-1 operand: element `n` receives the updates whose row number is `n`. -/
theorem scatterAdd_rank1_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal) (n : Fin N) :
    Ideal.hostScatterAdd d x idx upd (ix1 n)
      = x (ix1 n) + ∑ j : Fin M, if (idx (ixP j)).toInt = (n.val : Int) then upd (ix1 j) else 0 := by
  unfold Ideal.hostScatterAdd
  congr 1
  rw [Finset.sum_filter, ← Equiv.sum_comp (idxEquiv1 (n := M)).symm]
  refine Finset.sum_congr rfl fun j _ => ?_
  have hj : (idxEquiv1 (n := M)).symm j = ix1 j := rfl
  rw [hj]
  have := resultIdx_rank1 d huw hiw hsd hivd idx (ix1 j) n
  by_cases hc : (idx (ixP j)).toInt = (n.val : Int)
  · rw [if_pos hc, if_pos (this.2 hc)]
  · rw [if_neg hc, if_neg (fun h => hc (this.1 h))]

/-- The two axes of a rank-2 shape are different. -/
theorem fin2_one_ne_zero : (1 : Fin 2) ≠ 0 := by decide

/-- An entry of a one-element list is that element. -/
theorem getElem_of_eq_singleton {α : Type} (l : List α) (a : α) (hl : l = [a]) (i : Nat) (h : i < l.length) : l[i] = a := by
  subst hl
  have hi : i = 0 := by simpa using h
  subst hi; rfl

/-- Rank 2, scattered by rows: the update at `J` lands on operand element `(n, f)` exactly when its row number, read
    signed, is `n` and its window coordinate is `f`. -/
theorem resultIdx_rows {N K M w : Nat} (d : ScatterDims ⟨2, ![N, K]⟩ ⟨2, ![M, 1]⟩ ⟨2, ![M, K]⟩)
    (huw : d.updateWindowDims = [1]) (hiw : d.insertedWindowDims = [0]) (hsd : d.scatterDimsToOperandDims = [0])
    (hivd : d.indexVectorDim = 1) (idx : IVec ⟨2, ![M, 1]⟩ w) (J : (⟨2, ![M, K]⟩ : Shape).Idx) (n : Fin N) (f : Fin K) :
    d.resultIdx? J idx = some (ix2 n f) ↔ (idx (ixP (J 0))).toInt = (n.val : Int) ∧ J 1 = f := by
  have hm : (0 : Fin 2) ∈ d.scatterDimsToOperandDims := by rw [hsd]; exact List.mem_singleton.mpr rfl
  have hm1 : (1 : Fin 2) ∉ d.scatterDimsToOperandDims := by
    rw [hsd]; exact fun h => fin2_one_ne_zero (List.mem_singleton.mp h)
  have hsk : d.sKept = [1] := by
    show (⟨2, ![N, K]⟩ : Shape).kept d.insertedWindowDims = [1]
    rw [hiw]; rfl
  have hus : d.uScatter = [0] := by
    show (⟨2, ![M, K]⟩ : Shape).kept d.updateWindowDims = [0]
    rw [huw]; rfl
  have hk0 : (0 : Fin 2) ∉ d.sKept := by
    rw [hsk]; exact fun h => fin2_one_ne_zero (List.mem_singleton.mp h).symm
  have hk1 : (1 : Fin 2) ∈ d.sKept := by rw [hsk]; exact List.mem_singleton.mpr rfl
  have hwin0 : d.window J 0 = 0 := by unfold ScatterDims.window; rw [dif_neg hk0]
  have hwin1 : d.window J 1 = (J 1).val := by
    unfold ScatterDims.window; rw [dif_pos hk1]
    have e : ∀ X : Fin 2, X = 1 → (J X).val = (J 1).val := by rintro _ rfl; rfl
    exact e _ (getElem_of_eq_singleton _ _ huw _ _)
  have hsi : d.siIdx J ⟨d.scatterDimsToOperandDims.idxOf 0, List.idxOf_lt_length_iff.2 hm⟩ = ixP (J 0) := by
    funext b
    match b with
    | ⟨0, _⟩ =>
      unfold ScatterDims.siIdx
      rw [dif_neg (by rw [hivd]; simp)]
      unfold ScatterDims.siCoord
      apply Fin.ext
      simp only [Fin.val_cast]
      have e : ∀ X : Fin 2, X = 0 → (J X).val = (J 0).val := by rintro _ rfl; rfl
      exact e _ (getElem_of_eq_singleton _ _ hus _ _)
    | ⟨1, _⟩ =>
      unfold ScatterDims.siIdx
      rw [dif_pos (by rw [hivd])]
      apply Fin.ext
      show List.idxOf (0 : Fin 2) d.scatterDimsToOperandDims = 0
      rw [hsd]; simp
  have hstart0 : d.start J idx 0 = (idx (ixP (J 0))).toInt := by
    unfold ScatterDims.start; rw [dif_pos hm, hsi]; rfl
  have hstart1 : d.start J idx 1 = 0 := by
    unfold ScatterDims.start; rw [dif_neg hm1]
  have hsw0 : d.start J idx 0 + (d.window J 0 : Int) = (idx (ixP (J 0))).toInt := by
    rw [hstart0, hwin0]; simp
  have hsw1 : d.start J idx 1 + (d.window J 1 : Int) = ((J 1).val : Int) := by
    rw [hstart1, hwin1]; simp
  have hJ1 : (J 1).val < K := (J 1).isLt
  unfold ScatterDims.resultIdx?
  split
  · rename_i h
    rw [Option.some.injEq]
    constructor
    · intro e
      have e0 : (d.start J idx 0 + (d.window J 0 : Int)).toNat = n.val := congrArg Fin.val (congrFun e 0)
      have e1 : (d.start J idx 1 + (d.window J 1 : Int)).toNat = f.val := congrArg Fin.val (congrFun e 1)
      have h0 := (h 0).1
      exact ⟨by omega, Fin.ext (by omega)⟩
    · rintro ⟨e0, e1⟩
      have e1' : (J 1).val = f.val := congrArg Fin.val e1
      funext a
      match a with
      | ⟨0, _⟩ =>
        apply Fin.ext
        show (d.start J idx 0 + (d.window J 0 : Int)).toNat = n.val
        omega
      | ⟨1, _⟩ =>
        apply Fin.ext
        show (d.start J idx 1 + (d.window J 1 : Int)).toNat = f.val
        omega
  · rename_i h
    constructor
    · intro e; cases e
    · rintro ⟨e0, -⟩
      exfalso; apply h
      have hn := n.isLt
      refine Fin.forall_fin_two.2 ⟨?_, ?_⟩
      · show (0 : Int) ≤ d.start J idx 0 + (d.window J 0 : Int) ∧ d.start J idx 0 + (d.window J 0 : Int) < ((N : Nat) : Int)
        constructor <;> omega
      · show (0 : Int) ≤ d.start J idx 1 + (d.window J 1 : Int) ∧ d.start J idx 1 + (d.window J 1 : Int) < ((K : Nat) : Int)
        constructor <;> omega

/-- A rank-2 operand scattered by rows, the second axis the update's window: element `(n, f)` receives
    element `f` of the update rows whose row number is `n`. -/
theorem scatterAdd_rows_apply {N K M w : Nat} (d : ScatterDims ⟨2, ![N, K]⟩ ⟨2, ![M, 1]⟩ ⟨2, ![M, K]⟩)
    (huw : d.updateWindowDims = [1]) (hiw : d.insertedWindowDims = [0]) (hsd : d.scatterDimsToOperandDims = [0])
    (hivd : d.indexVectorDim = 1)
    (x : (⟨2, ![N, K]⟩ : Shape).Idx → EReal) (idx : IVec ⟨2, ![M, 1]⟩ w) (upd : (⟨2, ![M, K]⟩ : Shape).Idx → EReal)
    (n : Fin N) (f : Fin K) :
    Ideal.hostScatterAdd d x idx upd (ix2 n f)
      = x (ix2 n f) + ∑ j : Fin M, if (idx (ixP j)).toInt = (n.val : Int) then upd (ix2 j f) else 0 := by
  unfold Ideal.hostScatterAdd
  congr 1
  rw [Finset.sum_filter, sum_idx2]
  refine Finset.sum_congr rfl fun j _ => ?_
  -- of update row j only the window coordinate f can land on (n, f)
  refine (Finset.sum_eq_single f (fun b _ hb => ?_) (fun h => absurd (Finset.mem_univ f) h)).trans ?_
  · exact if_neg (fun h' => hb ((resultIdx_rows d huw hiw hsd hivd idx (ix2 j b) n f).1 h').2)
  · have hr := resultIdx_rows d huw hiw hsd hivd idx (ix2 j f) n f
    by_cases hc : (idx (ixP j)).toInt = (n.val : Int)
    · rw [if_pos hc, if_pos (hr.2 ⟨hc, rfl⟩)]
    · rw [if_neg hc, if_neg (fun h' => hc (hr.1 h').1)]

/-- The take of a rank-1 table, at a position given by its coordinate. -/
theorem gather_rank1_apply {α : Type} {N M w : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (j : Fin M) (hN : 0 < N) :
    Host.gather d x idx (ix1 j) = x (ix1 ⟨min (idx (ixP j)).toInt.toNat (N - 1), by omega⟩) := by
  -- the rank-1 take, its indices written by their coordinate
  have e : ∀ {n : Nat} (p : Fin n), Shape.Idx.ofFin p = ix1 p := by
    intro n p; funext a; match a with | ⟨0, _⟩ => rfl
  have h := gather_take d hcoll hob hsim hivd x idx j hN
  rw [e, e] at h
  exact h

/-- The take of whole rows of a rank-2 table: result row `j` is the table's row `idx[j]`, clamped. -/
theorem gather_rows_apply {α : Type} {N K M w : Nat} (d : GatherDims ⟨2, ![N, K]⟩ ⟨2, ![M, 1]⟩ ⟨2, ![M, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, K]⟩ : Shape).Idx → α) (idx : IVec ⟨2, ![M, 1]⟩ w) (j : Fin M) (f : Fin K) (hN : 0 < N) :
    Host.gather d x idx (ix2 j f) = x (ix2 ⟨min (idx (ixP j)).toInt.toNat (N - 1), by omega⟩ f) := by
  have hc0 : (0 : Fin 2) ∈ d.collapsedSliceDims := by rw [hcoll]; exact List.mem_singleton.mpr rfl
  have hb0 : (0 : Fin 2) ∉ d.operandBatchingDims := by rw [hob]; exact List.not_mem_nil
  have hb1 : (1 : Fin 2) ∉ d.operandBatchingDims := by rw [hob]; exact List.not_mem_nil
  have hk0 : (0 : Fin 2) ∉ d.sKept := fun h => ((d.mem_sKept 0).1 h).1 hc0
  have hk1 : (1 : Fin 2) ∈ d.sKept :=
    (d.mem_sKept 1).2 ⟨by rw [hcoll]; exact fun h => fin2_one_ne_zero (List.mem_singleton.mp h), hb1⟩
  have hm0 : (0 : Fin 2) ∈ d.startIndexMap := by rw [hsim]; exact List.mem_singleton.mpr rfl
  have hm1 : (1 : Fin 2) ∉ d.startIndexMap := by
    rw [hsim]; exact fun h => fin2_one_ne_zero (List.mem_singleton.mp h)
  have hsl : d.sliceSizes 0 = 1 := d.slice_collapsed 0 hc0
  -- the result's one batch axis is axis 0
  have hbd : d.batchDims = [0] := by
    show (⟨2, ![M, K]⟩ : Shape).kept d.offsetDims = [0]
    rw [hoff]; rfl
  have hsi : d.siIdx (ix2 j f) ⟨d.startIndexMap.idxOf 0, List.idxOf_lt_length_iff.2 hm0⟩ = ixP j := by
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 j f : (⟨2, ![M, K]⟩ : Shape).Idx) X).val = j.val := by rintro _ rfl; rfl
      exact e _ (getElem_of_eq_singleton _ _ hbd _ _)
    | ⟨1, _⟩ =>
      unfold GatherDims.siIdx
      rw [dif_pos (by rw [hivd])]
      apply Fin.ext
      show List.idxOf (0 : Fin 2) d.startIndexMap = 0
      rw [hsim]; simp
  -- axis 0: collapsed and start-indexed, the clamped row number
  have hstart0 : d.start (ix2 j f) idx 0 = min (idx (ixP j)).toInt.toNat (N - 1) := by
    unfold GatherDims.start; rw [dif_pos hm0, hsi, hsl]; rfl
  have hbat0 := d.batchCoord_eq_zero (ix2 j f) 0 hb0
  have hoff0 := d.offCoord_eq_zero (ix2 j f) 0 hk0
  -- axis 1: an offset axis, not start-indexed, the result's coordinate on its offset axis
  have hstart1 : d.start (ix2 j f) idx 1 = 0 := by unfold GatherDims.start; rw [dif_neg hm1]
  have hbat1 := d.batchCoord_eq_zero (ix2 j f) 1 hb1
  have hoff1 : d.offCoord (ix2 j f) 1 = f.val := by
    unfold GatherDims.offCoord; rw [dif_pos hk1]
    have e : ∀ X : Fin 2, X = 1 → ((ix2 j f : (⟨2, ![M, K]⟩ : Shape).Idx) X).val = f.val := by rintro _ rfl; rfl
    exact e _ (getElem_of_eq_singleton _ _ hoff _ _)
  unfold Host.gather
  congr 1
  funext a
  match a with
  | ⟨0, _⟩ =>
    apply Fin.ext
    show d.start (ix2 j f) idx 0 + d.batchCoord (ix2 j f) 0 + d.offCoord (ix2 j f) 0 = min (idx (ixP j)).toInt.toNat (N - 1)
    omega
  | ⟨1, _⟩ =>
    apply Fin.ext
    show d.start (ix2 j f) idx 1 + d.batchCoord (ix2 j f) 1 + d.offCoord (ix2 j f) 1 = f.val
    omega

/-- Rows `0 … E − 1` followed by `N` rows whose row numbers are `0 … N − 1`: of the second part the sum keeps
    exactly row `n`. -/
theorem sum_rows_then_iota {E N M : Nat} (hM : M = E + N) (c : Fin M → Int) (g : Fin M → EReal) (n : Fin N)
    (hc : ∀ m : Fin N, c ⟨E + m.val, by omega⟩ = (m.val : Int)) :
    (∑ j : Fin M, if c j = (n.val : Int) then g j else 0)
      = (∑ e : Fin E, if c ⟨e.val, by omega⟩ = (n.val : Int) then g ⟨e.val, by omega⟩ else 0) + g ⟨E + n.val, by omega⟩ := by
  subst hM
  rw [Fin.sum_univ_add]
  congr 1
  -- the second part: row E + m has number m, so the condition is m = n and one term survives
  have h : ∀ m : Fin N, (if c (Fin.natAdd E m) = (n.val : Int) then g (Fin.natAdd E m) else 0)
      = if m = n then g ⟨E + n.val, by omega⟩ else 0 := by
    intro m
    have hcm : c (Fin.natAdd E m) = (m.val : Int) := hc m
    rw [hcm]
    by_cases hmn : m = n
    · subst hmn; simp; rfl
    · rw [if_neg hmn, if_neg]
      intro h'; exact hmn (Fin.ext (by exact_mod_cast h'))
  rw [Finset.sum_congr rfl (fun m _ => h m), Finset.sum_ite_eq' Finset.univ n]
  simp

/-- A small non-negative row number is unchanged by the wrap of negative indices (add the extent where negative). -/
theorem wrap_ofNat (N m : Nat) (hm : m < 2 ^ 31) :
    Scalar.select (IntOp.cmpi .slt (BitVec.ofNat 32 m) 0#32) (IntOp.addi (BitVec.ofNat 32 m) (BitVec.ofNat 32 N)) (BitVec.ofNat 32 m)
      = BitVec.ofNat 32 m := by
  -- a word below 2³¹ is not negative: the comparison bit is 0 and the select keeps the word
  have h : IntOp.cmpi .slt (BitVec.ofNat 32 m) 0#32 = 0#1 := by
    apply eq_zero_of_ne_one
    intro h
    rw [slt_iff_toNat (by simp [BitVec.toNat_ofNat]; omega) (by decide)] at h
    simp at h
  rw [h, select_zero]

/-- A row number inside the table is its own clamp. -/
theorem clamp_ofNat (N m : Nat) (hm : m < N) (hN : N ≤ 2 ^ 31) :
    min (BitVec.ofNat 32 m).toInt.toNat (N - 1) = m := by
  rw [toInt_ofNat_small m (by omega), Int.toNat_natCast]
  omega

end Cert.Lib.TakeScatter

end
-- ==== Proof.RefLoops.lean ====
/-
  The reference's edge list with the self loops appended, read at one position.

  The reference extends the E = 3200000 edges by N = 100000 self loops: the source and target vectors by the
  node numbers 0 … N − 1, the weights by ones. Position `e < E` of an extended vector is the edge's own entry;
  position `E + m` is node `m`'s self loop: source and target `m`, weight one.
-/
import proofs.«406519_j395136991891_3_alg».proof.Proof.Gen.ReferenceIdeal.Read
import Idealize.ShloMosaic.Lib.Pipeline.Value
import Idealize.ShloMosaic.Lib.ValueIdx
import Idealize.ShloMosaic.Lib.StableHlo.Predicate

noncomputable section

namespace Cert.ReferenceIdeal.Loops

open Idealize.ShloMosaic Idealize.ShloMosaic.ValueIdx Idealize.ShloMosaic.StableHlo.Predicate
open Cert.ReferenceIdeal Cert.ReferenceIdeal.Gen Cert.ReferenceIdeal.Read

/-- Edge `e`'s position in the extended list. -/
abbrev edgePos (e : Fin 3200000) : Fin 3300000 := ⟨e.val, Nat.lt_of_lt_of_le e.isLt (by decide)⟩
/-- Node `m`'s self loop's position in the extended list. -/
abbrev loopPos (m : Fin 100000) : Fin 3300000 := ⟨3200000 + m.val, by have := m.isLt; omega⟩

variable (ei : (⟨S2x3200000, .i32⟩ : BufTy).Contents (Elt Ideal)) (a : (⟨S3200000, .f32⟩ : BufTy).Contents (Elt Ideal))

/-- Row 1 of the edge list as a vector: entry `e` is the edge's target. -/
theorem dst_apply (e : Fin 3200000) : val_main_v5 (F := Ideal) ei (ix1 e) = ei (ix2 (1 : Fin 2) e) := by
  rw [val_main_v5_apply, val_main_v4_apply]
  refine congrArg ei (funext fun d => Fin.ext ?_)
  match d with
  | ⟨0, _⟩ => rfl
  | ⟨1, _⟩ => exact Nat.mod_eq_of_lt e.isLt

/-- Row 0 of the edge list as a vector: entry `e` is the edge's source. -/
theorem src_apply (e : Fin 3200000) : val_main_v2 (F := Ideal) ei (ix1 e) = ei (ix2 (0 : Fin 2) e) := by
  rw [val_main_v2_apply, val_main_v1_apply]
  refine congrArg ei (funext fun d => Fin.ext ?_)
  match d with
  | ⟨0, _⟩ => rfl
  | ⟨1, _⟩ => exact Nat.mod_eq_of_lt e.isLt

/-- The extended target vector at an edge: the edge's target. -/
theorem dst_edge (e : Fin 3200000) : val_main_v6 (F := Ideal) ei (ix1 (edgePos e)) = ei (ix2 (1 : Fin 2) e) := by
  unfold val_main_v6
  rw [concatenate_pair_apply_left (0 : Fin S3300000.rank) _ _ concatenates_S3200000_S100000_S3300000_d0 _ rfl (ix1 e)
    (fun b => by match b with | ⟨0, _⟩ => rfl)]
  rw [val_main_v5_apply, val_main_v4_apply]
  refine congrArg ei (funext fun d => Fin.ext ?_)
  match d with
  | ⟨0, _⟩ => rfl
  | ⟨1, _⟩ => exact Nat.mod_eq_of_lt e.isLt

/-- The extended target vector at a self loop: the node's number. -/
theorem dst_loop (m : Fin 100000) : val_main_v6 (F := Ideal) ei (ix1 (loopPos m)) = BitVec.ofNat 32 m.val := by
  unfold val_main_v6
  rw [concatenate_pair_apply_right (0 : Fin S3300000.rank) _ _ concatenates_S3200000_S100000_S3300000_d0 _ rfl rfl (ix1 m)
    (fun b hb => by match b with | ⟨0, _⟩ => exact absurd rfl hb)
    (by show m.val + 3200000 = 3200000 + m.val; omega)]
  rfl

/-- The extended source vector at an edge: the edge's source. -/
theorem src_edge (e : Fin 3200000) : val_main_v3 (F := Ideal) ei (ix1 (edgePos e)) = ei (ix2 (0 : Fin 2) e) := by
  unfold val_main_v3
  rw [concatenate_pair_apply_left (0 : Fin S3300000.rank) _ _ concatenates_S3200000_S100000_S3300000_d0 _ rfl (ix1 e)
    (fun b => by match b with | ⟨0, _⟩ => rfl)]
  rw [val_main_v2_apply, val_main_v1_apply]
  refine congrArg ei (funext fun d => Fin.ext ?_)
  match d with
  | ⟨0, _⟩ => rfl
  | ⟨1, _⟩ => exact Nat.mod_eq_of_lt e.isLt

/-- The extended source vector at a self loop: the node's number. -/
theorem src_loop (m : Fin 100000) : val_main_v3 (F := Ideal) ei (ix1 (loopPos m)) = BitVec.ofNat 32 m.val := by
  unfold val_main_v3
  rw [concatenate_pair_apply_right (0 : Fin S3300000.rank) _ _ concatenates_S3200000_S100000_S3300000_d0 _ rfl rfl (ix1 m)
    (fun b hb => by match b with | ⟨0, _⟩ => exact absurd rfl hb)
    (by show m.val + 3200000 = 3200000 + m.val; omega)]
  rfl

/-- The extended weights at an edge: the edge's weight. -/
theorem wgt_edge (e : Fin 3200000) : val_main_v8 (F := Ideal) a (ix1 (edgePos e)) = a (ix1 e) := by
  unfold val_main_v8
  exact concatenate_pair_apply_left (0 : Fin S3300000.rank) _ _ concatenates_S3200000_S100000_S3300000_d0 _ rfl (ix1 e)
    (fun b => by match b with | ⟨0, _⟩ => rfl)

/-- The extended weights at a self loop: one. -/
theorem wgt_loop (m : Fin 100000) : val_main_v8 (F := Ideal) a (ix1 (loopPos m)) = Ideal.ofBits .f32 0x3F800000#32 := by
  unfold val_main_v8
  rw [concatenate_pair_apply_right (0 : Fin S3300000.rank) _ _ concatenates_S3200000_S100000_S3300000_d0 _ rfl rfl (ix1 m)
    (fun b hb => by match b with | ⟨0, _⟩ => exact absurd rfl hb)
    (by show m.val + 3200000 = 3200000 + m.val; omega)]
  rfl

end Cert.ReferenceIdeal.Loops

end
-- ==== Proof.BridgeDeg.lean ====
/-
  The two programs compute one degree vector, hence one normalizing factor.

  The kernel's host code adds the edge weights up at their targets and then adds the self loop's weight 1;
  the reference appends the N self loops (target `m`, weight one) to the edge list and adds everything up at
  once. At node `n` both are  0 + Σ_{e : col e = n} a[e] + 1  up to the grouping of the additions, which the
  extended reals' addition does not see. The factor `dis = deg^(-1/2)` where `deg > 0`, else 0, is then the
  same function of the same vector.
-/
import proofs.«406519_j395136991891_3_alg».proof.Proof.KernelTail
import proofs.«406519_j395136991891_3_alg».proof.Proof.LibTakeScatter
import proofs.«406519_j395136991891_3_alg».proof.Proof.RefLoops

noncomputable section

open scoped BigOperators

namespace Cert.Bridge

open Idealize.ShloMosaic Idealize.ShloMosaic.ValueIdx Idealize.ShloMosaic.StableHlo.Predicate
open Cert.ReferenceIdeal Cert.ReferenceIdeal.Gen Cert.ReferenceIdeal.Read Cert.ReferenceIdeal.Loops
open Cert.Lib.TakeScatter

variable [Cert.KernelIdeal.Facts]
variable (ei : (⟨S2x3200000, .i32⟩ : BufTy).Contents (Elt Ideal)) (a : (⟨S3200000, .f32⟩ : BufTy).Contents (Elt Ideal))

/-- The kernel's target vector is the reference's row 1 of the edge list, and its source vector row 0. -/
theorem dstRow_eq : Cert.KernelIdeal.Tail.dstRow ei = val_main_v5 (F := Ideal) ei := rfl
theorem srcRow_eq : Cert.KernelIdeal.Tail.srcRow ei = val_main_v2 (F := Ideal) ei := rfl

/-- A vector of E indices kept as a column reads, at row `e`, the vector at `e`. -/
theorem asColumn_apply (v : IVec Cert.KernelIdeal.S3200000 32) (e : Fin 3200000) :
    Cert.KernelIdeal.Tail.asColumn v (ixP e) = v (ix1 e) := by
  unfold Cert.KernelIdeal.Tail.asColumn
  exact broadcastInDim_apply _ _ v (ixP e) (ix1 e) (fun d => match d with
    | ⟨0, _⟩ => by show e.val = if (3200000 : Nat) = 1 then 0 else e.val; rw [if_neg (by decide)])

/-- The reference's columns of extended row numbers read, at row `j`, the extended vector at `j`. -/
theorem col10_apply (j : Fin 3300000) : val_main_v10 (F := Ideal) ei (ixP j) = val_main_v6 (F := Ideal) ei (ix1 j) := by
  rw [val_main_v10_apply]
  exact congrArg _ (funext fun d => match d with | ⟨0, _⟩ => rfl)

/-- The host's accumulating scatter, at the ideal instance, is the exact sum (stated over arbitrary operands). -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- A scalar constant broadcast over the nodes reads the constant's value at every node. -/
theorem kernel_splat_apply (w : BitVec 32) (i : Cert.KernelIdeal.S100000.Idx) :
    broadcastInDim Cert.KernelIdeal.S100000 ![] Cert.KernelIdeal.Facts₀.bcast_S_S100000
        (constant (F := Ideal) Cert.KernelIdeal.S_ .f32 w) i = Ideal.ofBits .f32 w :=
  (broadcastInDim_apply _ _ _ i ix0 (fun d => d.elim0)).trans (constant_apply _ _)

/-- The kernel's zero vector reads the word of `+0.0`. -/
theorem kernel_zeros_apply (i : Cert.KernelIdeal.S100000.Idx) :
    Cert.KernelIdeal.Tail.zeros (F := Ideal) i = Ideal.ofBits .f32 0x00000000#32 := by
  unfold Cert.KernelIdeal.Tail.zeros
  exact kernel_splat_apply _ i

/-- The reference's zero vector over the nodes reads the word of `+0.0`. -/
theorem reference_v9_apply (i : S100000.Idx) : val_main_v9 (F := Ideal) i = Ideal.ofBits .f32 0x00000000#32 := by
  rw [val_main_v9_apply, val_main_cst_0_apply, Ideal.ofBits_def]

/-- The kernel's degree at node `n`. -/
theorem kernel_deg_apply (n : Fin 100000) :
    Cert.KernelIdeal.Tail.deg (F := Ideal) ei a (ix1 n)
      = (Ideal.ofBits .f32 0x00000000#32
          + ∑ e : Fin 3200000, if (ei (ix2 (1 : Fin 2) e)).toInt = (n.val : Int) then a (ix1 e) else 0)
        + Ideal.ofBits .f32 0x3F800000#32 := by
  unfold Cert.KernelIdeal.Tail.deg
  rw [addf_apply, hostScatterAdd_eq,
    scatterAdd_rank1_apply Cert.KernelIdeal.scatter_S100000_S3200000x1_S3200000_n_0_0_1 rfl rfl rfl rfl]
  refine congrArg₂ (· + ·) (congrArg₂ (· + ·) (kernel_zeros_apply _) (Finset.sum_congr rfl fun e _ => ?_)) (kernel_splat_apply _ _)
  rw [asColumn_apply, dstRow_eq, dst_apply]

/-- The reference's degree at node `n`: the same edge sum, the self loop's one inside the sum's grouping. -/
theorem reference_deg_apply (n : Fin 100000) :
    val_main_v11 (F := Ideal) ei a (ix1 n)
      = Ideal.ofBits .f32 0x00000000#32
          + ((∑ e : Fin 3200000, if (ei (ix2 (1 : Fin 2) e)).toInt = (n.val : Int) then a (ix1 e) else 0)
              + Ideal.ofBits .f32 0x3F800000#32) := by
  unfold val_main_v11
  rw [hostScatterAdd_eq, scatterAdd_rank1_apply Cert.ReferenceIdeal.scatter_S100000_S3300000x1_S3300000_n_0_0_1 rfl rfl rfl rfl]
  refine congrArg₂ (· + ·) (reference_v9_apply _) ?_
  refine (sum_rows_then_iota (E := 3200000) (N := 100000) rfl
    (fun j => (val_main_v10 (F := Ideal) ei (ixP j)).toInt) (fun j => val_main_v8 (F := Ideal) a (ix1 j)) n
    (fun m => ?_)).trans ?_
  · show (val_main_v10 (F := Ideal) ei (ixP (loopPos m))).toInt = (m.val : Int)
    rw [col10_apply, dst_loop]
    exact toInt_ofNat_small m.val (by have := m.isLt; omega)
  refine congrArg₂ (· + ·) (Finset.sum_congr rfl fun e _ => ?_) ?_
  · show (if (val_main_v10 (F := Ideal) ei (ixP (edgePos e))).toInt = (n.val : Int)
        then val_main_v8 (F := Ideal) a (ix1 (edgePos e)) else 0) = _
    rw [col10_apply, dst_edge, wgt_edge]
  · exact wgt_loop a n

/-- One degree vector. -/
theorem deg_eq : Cert.KernelIdeal.Tail.deg (F := Ideal) ei a = val_main_v11 (F := Ideal) ei a := by
  funext i
  obtain ⟨n, rfl⟩ : ∃ n : Fin 100000, i = ix1 n := ⟨i 0, eq_ix1 i⟩
  rw [kernel_deg_apply, reference_deg_apply, add_assoc]

/-- One normalizing factor. -/
theorem dis_eq : Cert.KernelIdeal.Tail.invSqrt (Cert.KernelIdeal.Tail.deg (F := Ideal) ei a) = val_main_v15 (F := Ideal) ei a := by
  rw [deg_eq]
  rfl

end Cert.Bridge

end
-- ==== Proof.BridgeOut.lean ====
/-
  The two programs compute one aggregated feature per node.

  With `dis` the common normalizing factor, `H = x · W` the dense transform and `node w` the node a row number
  `w` names (a negative number counts from the end, then the number is clamped into the nodes), at node `n`:
    kernel      ((0 + Σ_{e : col e = n} ((dis[r] · H[r,0]) · a[e]) · dis[c])  +  (H[n,0] · dis[n]) · dis[n]  +  b[0])  −  x[n,0]
    reference   ((0 + (Σ_{e : col e = n} ((dis[r] · a[e]) · dis[c]) · H[r,0]  +  ((dis[n] · 1) · dis[n]) · H[n,0]))  +  b[0])  −  x[n,0]
  where r = node (row e), c = node (col e); the reference's second summand is node n's self loop, the one row of
  the appended loops whose target is n. The kernel keeps only column 0 of `H`; the reference computes all 64
  columns, scatters them by rows and then takes column 0, and a scatter by rows acts on each column by itself.
  The two lines differ by the order of the factors and the grouping of the summands only.
-/
import proofs.«406519_j395136991891_3_alg».proof.Proof.BridgeDeg
import Idealize.ShloMosaic.PureOps.Ideal.Laws

noncomputable section

open scoped BigOperators

namespace Cert.Bridge

open Idealize.ShloMosaic Idealize.ShloMosaic.ValueIdx Idealize.ShloMosaic.StableHlo.Predicate
open Cert.ReferenceIdeal Cert.ReferenceIdeal.Gen Cert.ReferenceIdeal.Read Cert.ReferenceIdeal.Loops
open Cert.Lib.TakeScatter Cert.KernelIdeal.Tail

variable [Cert.KernelIdeal.Facts]
variable (x : (⟨S100000x64, .f32⟩ : BufTy).Contents (Elt Ideal)) (ei : (⟨S2x3200000, .i32⟩ : BufTy).Contents (Elt Ideal))
  (a : (⟨S3200000, .f32⟩ : BufTy).Contents (Elt Ideal)) (W : (⟨S64x64, .f32⟩ : BufTy).Contents (Elt Ideal))
  (b : (⟨S64, .f32⟩ : BufTy).Contents (Elt Ideal))

/-! ## Row numbers to nodes -/

/-- A negative row number counts from the end. -/
def wrapWord (w : BitVec 32) : BitVec 32 := Scalar.select (IntOp.cmpi .slt w 0#32) (IntOp.addi w 100000#32) w

/-- The node a row number names: wrapped, then clamped into the nodes. -/
def node (w : BitVec 32) : Fin 100000 := ⟨min (wrapWord w).toInt.toNat (100000 - 1), by omega⟩

/-- A node's own number names that node. -/
theorem node_ofNat (m : Fin 100000) : node (BitVec.ofNat 32 m.val) = m := by
  apply Fin.ext
  show min (wrapWord (BitVec.ofNat 32 m.val)).toInt.toNat (100000 - 1) = m.val
  unfold wrapWord
  rw [wrap_ofNat 100000 m.val (by have := m.isLt; omega)]
  exact clamp_ofNat 100000 m.val m.isLt (by decide)

/-! ## The kernel's host code at an edge -/

theorem kernel_wrap_apply (v : IVec Cert.KernelIdeal.S3200000 32) (e : Fin 3200000) :
    wrap v (ix1 e) = wrapWord (v (ix1 e)) := rfl

/-- A gather of a node vector at the wrapped row numbers reads the vector at the node the row number names. -/
theorem kernel_gather_apply (t : FVec Ideal Cert.KernelIdeal.S100000 .f32) (v : IVec Cert.KernelIdeal.S3200000 32) (e : Fin 3200000) :
    Host.gather Cert.KernelIdeal.gather_S100000_S3200000x1_S3200000_n_0_n_n_0_1_1 t (asColumn (wrap v)) (ix1 e)
      = t (ix1 (node (v (ix1 e)))) := by
  rw [gather_rank1_apply Cert.KernelIdeal.gather_S100000_S3200000x1_S3200000_n_0_n_n_0_1_1 rfl rfl rfl rfl t _ e (by decide)]
  refine congrArg t (congrArg ix1 (Fin.ext ?_))
  show min (asColumn (wrap v) (ixP e)).toInt.toNat (100000 - 1) = min (wrapWord (v (ix1 e))).toInt.toNat (100000 - 1)
  rw [asColumn_apply, kernel_wrap_apply]

/-- An edge's message in the kernel's host code. -/
theorem kernel_message_apply (D h0 : FVec Ideal Cert.KernelIdeal.S100000 .f32) (e : Fin 3200000) :
    messages D h0 ei a (ix1 e)
      = ((D (ix1 (node (ei (ix2 (0 : Fin 2) e)))) * h0 (ix1 (node (ei (ix2 (0 : Fin 2) e))))) * a (ix1 e))
          * D (ix1 (node (ei (ix2 (1 : Fin 2) e)))) := by
  unfold messages
  rw [mulf_apply, mulf_apply, kernel_gather_apply, kernel_gather_apply, mulf_apply, srcRow_eq, dstRow_eq, src_apply, dst_apply]

/-- The kernel's transformed feature, flattened, is column 0 of the dense transform. -/
theorem kernel_h0_apply (r : Fin 100000) :
    shapeCast Cert.KernelIdeal.S100000
        (matvecCol x (extractStridedSlice Cert.KernelIdeal.S64x1 ![0, 0] W Cert.KernelIdeal.Facts₀.slices_S64x64_S64x1_0_0))
        Cert.KernelIdeal.Facts₀.shapeCasts_S100000x1_S100000 (ix1 r)
      = val_main_v32 (F := Ideal) x W (ix2 r (0 : Fin 64)) := by
  refine (shapeCast_apply _ _ (ix1 r) (ix2 r (0 : Fin 1)) ?_).trans ?_
  · rw [Shape.rowMajor_val_two, Shape.rowMajor_val_one]; show r.val * 1 + 0 = r.val; omega
  rw [val_main_v32_apply]
  unfold matvecCol
  refine Finset.sum_congr rfl fun k _ => ?_
  refine congrArg₂ (· * ·) (congrArg x (funext fun d => match d with | ⟨0, _⟩ => rfl | ⟨1, _⟩ => rfl)) ?_
  exact extractStridedSlice_apply ![0, 0] W _ _ _ (fun d => match d with
    | ⟨0, _⟩ => by show k.val = 0 + k.val; omega
    | ⟨1, _⟩ => by show (0 : Nat) = 0 + 0; rfl)

/-- The kernel's copy of the first feature, flattened, is the reference's first column of `x`. -/
theorem kernel_x0_apply (n : Fin 100000) :
    shapeCast Cert.KernelIdeal.S100000 (firstCol x) Cert.KernelIdeal.Facts₀.shapeCasts_S100000x1_S100000 (ix1 n)
      = val_main_v52 (F := Ideal) x (ix1 n) := by
  refine (shapeCast_apply _ _ (ix1 n) (ix2 n (0 : Fin 1)) ?_).trans ?_
  · rw [Shape.rowMajor_val_two, Shape.rowMajor_val_one]; show n.val * 1 + 0 = n.val; omega
  rw [val_main_v52_apply, val_main_v51_apply]
  unfold firstCol
  refine congrArg x (funext fun d => Fin.ext ?_)
  match d with
  | ⟨0, _⟩ => exact (Nat.div_one n.val).symm
  | ⟨1, _⟩ => rfl

/-- The kernel's bias term at a node is `b[0]`. -/
theorem kernel_bias_apply (n : Fin 100000) :
    broadcastInDim Cert.KernelIdeal.S100000 ![] Cert.KernelIdeal.Facts₀.bcast_S_S100000
        (shapeCast Cert.KernelIdeal.S_ (extractStridedSlice Cert.KernelIdeal.S1 ![0] b Cert.KernelIdeal.Facts₀.slices_S64_S1_0)
          Cert.KernelIdeal.Facts₀.shapeCasts_S1_S_) (ix1 n)
      = b (ix1 (0 : Fin 64)) := by
  refine (broadcastInDim_apply _ _ _ (ix1 n) ix0 (fun d => d.elim0)).trans ?_
  refine (shapeCast_apply _ _ ix0 (ix1 (0 : Fin 1)) ?_).trans ?_
  · rw [Shape.rowMajor_val_one]; exact (Shape.rowMajorPi_zero _ _).symm
  exact extractStridedSlice_apply ![0] b _ _ (ix1 (0 : Fin 64)) (fun d => match d with | ⟨0, _⟩ => rfl)

/-! ## The reference at an extended row -/

theorem col21_apply (j : Fin 3300000) : val_main_v21 (F := Ideal) ei (ixP j) = wrapWord (val_main_v3 (F := Ideal) ei (ix1 j)) := by
  rw [val_main_v21_apply]
  exact congrArg (val_main_v20 (F := Ideal) ei) (funext fun d => match d with | ⟨0, _⟩ => rfl)
theorem col29_apply (j : Fin 3300000) : val_main_v29 (F := Ideal) ei (ixP j) = wrapWord (val_main_v6 (F := Ideal) ei (ix1 j)) := by
  rw [val_main_v29_apply]
  exact congrArg (val_main_v28 (F := Ideal) ei) (funext fun d => match d with | ⟨0, _⟩ => rfl)
theorem col39_apply (j : Fin 3300000) : val_main_v39 (F := Ideal) ei (ixP j) = wrapWord (val_main_v3 (F := Ideal) ei (ix1 j)) := by
  rw [val_main_v39_apply]
  exact congrArg (val_main_v38 (F := Ideal) ei) (funext fun d => match d with | ⟨0, _⟩ => rfl)
theorem col44_apply (j : Fin 3300000) : val_main_v44 (F := Ideal) ei (ixP j) = val_main_v6 (F := Ideal) ei (ix1 j) := by
  rw [val_main_v44_apply]
  exact congrArg _ (funext fun d => match d with | ⟨0, _⟩ => rfl)

/-- The factor of an extended row's source. -/
theorem reference_v22_apply (j : Fin 3300000) :
    val_main_v22 (F := Ideal) ei a (ix1 j) = val_main_v15 (F := Ideal) ei a (ix1 (node (val_main_v3 (F := Ideal) ei (ix1 j)))) := by
  unfold val_main_v22
  rw [gather_rank1_apply Cert.ReferenceIdeal.gather_S100000_S3300000x1_S3300000_n_0_n_n_0_1_1 rfl rfl rfl rfl _ _ j (by decide)]
  refine congrArg _ (congrArg ix1 (Fin.ext ?_))
  show min (val_main_v21 (F := Ideal) ei (ixP j)).toInt.toNat (100000 - 1) = min (wrapWord (val_main_v3 (F := Ideal) ei (ix1 j))).toInt.toNat (100000 - 1)
  rw [col21_apply]

/-- The factor of an extended row's target. -/
theorem reference_v30_apply (j : Fin 3300000) :
    val_main_v30 (F := Ideal) ei a (ix1 j) = val_main_v15 (F := Ideal) ei a (ix1 (node (val_main_v6 (F := Ideal) ei (ix1 j)))) := by
  unfold val_main_v30
  rw [gather_rank1_apply Cert.ReferenceIdeal.gather_S100000_S3300000x1_S3300000_n_0_n_n_0_1_1 rfl rfl rfl rfl _ _ j (by decide)]
  refine congrArg _ (congrArg ix1 (Fin.ext ?_))
  show min (val_main_v29 (F := Ideal) ei (ixP j)).toInt.toNat (100000 - 1) = min (wrapWord (val_main_v6 (F := Ideal) ei (ix1 j))).toInt.toNat (100000 - 1)
  rw [col29_apply]

/-- The transformed features of an extended row's source. -/
theorem reference_v40_apply (j : Fin 3300000) (f : Fin 64) :
    val_main_v40 (F := Ideal) x ei W (ix2 j f)
      = val_main_v32 (F := Ideal) x W (ix2 (node (val_main_v3 (F := Ideal) ei (ix1 j))) f) := by
  unfold val_main_v40
  rw [gather_rows_apply Cert.ReferenceIdeal.gather_S100000x64_S3300000x1_S3300000x64_1_0_n_n_0_1_164 rfl rfl rfl rfl rfl rfl _ _ j f (by decide)]
  refine congrArg _ (congrArg (fun r => ix2 r f) (Fin.ext ?_))
  show min (val_main_v39 (F := Ideal) ei (ixP j)).toInt.toNat (100000 - 1) = min (wrapWord (val_main_v3 (F := Ideal) ei (ix1 j))).toInt.toNat (100000 - 1)
  rw [col39_apply]

/-- An extended row's message, column 0. -/
theorem reference_message_apply (j : Fin 3300000) :
    val_main_v42 (F := Ideal) x ei a W (ix2 j (0 : Fin 64))
      = ((val_main_v15 (F := Ideal) ei a (ix1 (node (val_main_v3 (F := Ideal) ei (ix1 j)))) * val_main_v8 (F := Ideal) a (ix1 j))
            * val_main_v15 (F := Ideal) ei a (ix1 (node (val_main_v6 (F := Ideal) ei (ix1 j)))))
          * val_main_v32 (F := Ideal) x W (ix2 (node (val_main_v3 (F := Ideal) ei (ix1 j))) (0 : Fin 64)) := by
  rw [val_main_v42_apply, val_main_v41_apply, val_main_v33_apply]
  have hI : idx_main_v33 (idx_main_v41 (ix2 j (0 : Fin 64))) = ix1 j := funext fun d => match d with | ⟨0, _⟩ => rfl
  rw [hI, val_main_v31_apply, val_main_v23_apply, reference_v22_apply, reference_v30_apply, reference_v40_apply]
  rw [Ideal.mulf_def, Ideal.mulf_def, Ideal.mulf_def]

end Cert.Bridge

end
-- ==== Proof.BridgeNode.lean ====
/-
  The reference's result is the kernel's host tail applied to what the kernel region leaves.

  Node by node the two aggregated features differ by the order of three factors in each edge's message, by a
  factor one in the self loop's message and by the grouping of the summands (`BridgeOut` has both lines); the
  extended reals' product is commutative and associative and their sum associative, with no condition on the
  summands, so the two are equal for every input, finite or not.
-/
import proofs.«406519_j395136991891_3_alg».proof.Proof.BridgeOut

noncomputable section

open scoped BigOperators

namespace Cert.Bridge

open Idealize.ShloMosaic Idealize.ShloMosaic.ValueIdx Idealize.ShloMosaic.StableHlo.Predicate
open Cert.ReferenceIdeal Cert.ReferenceIdeal.Gen Cert.ReferenceIdeal.Read Cert.ReferenceIdeal.Loops
open Cert.Lib.TakeScatter Cert.KernelIdeal.Tail

variable [Cert.KernelIdeal.Facts]
variable (x : (⟨S100000x64, .f32⟩ : BufTy).Contents (Elt Ideal)) (ei : (⟨S2x3200000, .i32⟩ : BufTy).Contents (Elt Ideal))
  (a : (⟨S3200000, .f32⟩ : BufTy).Contents (Elt Ideal)) (W : (⟨S64x64, .f32⟩ : BufTy).Contents (Elt Ideal))
  (b : (⟨S64, .f32⟩ : BufTy).Contents (Elt Ideal))

/-! ## Three laws of the extended reals -/

/-- The word of `1.0` denotes one. -/
theorem one_eq : Ideal.ofBits .f32 0x3F800000#32 = 1 := by
  simp [Ideal.ofBits, Ideal.ieee, -EReal.coe_mul]; norm_num

/-- An edge's message: the transformed feature may be multiplied in first or last. -/
theorem edge_term (p q r s : EReal) : ((p * q) * r) * s = ((p * r) * s) * q := by
  rw [mul_right_comm p q r, mul_right_comm (p * r) q s]

/-- The self loop's message, its weight one. -/
theorem loop_term (h d one : EReal) (h1 : one = 1) : (h * d) * d = ((d * one) * d) * h := by
  rw [h1, mul_one, mul_assoc, mul_comm]

/-- The self loop's message may be added inside or outside the edges' sum. -/
theorem regroup (z s t c : EReal) : ((z + s) + t) + c = (z + (s + t)) + c := by
  rw [add_assoc z s t]

/-! ## Node by node -/

/-- The reference's zero array over nodes and features reads the word of `+0.0`. -/
theorem reference_v43_apply (i : S100000x64.Idx) : val_main_v43 (F := Ideal) i = Ideal.ofBits .f32 0x00000000#32 := by
  rw [val_main_v43_apply, val_main_cst_8_apply, Ideal.ofBits_def]

/-- The reference's scattered messages at (n, 0): the edges whose target is n, and n's self loop. -/
theorem reference_v45_apply (n : Fin 100000) :
    val_main_v45 (F := Ideal) x ei a W (ix2 n (0 : Fin 64))
      = Ideal.ofBits .f32 0x00000000#32
        + ((∑ e : Fin 3200000, if (ei (ix2 (1 : Fin 2) e)).toInt = (n.val : Int) then
              ((val_main_v15 (F := Ideal) ei a (ix1 (node (ei (ix2 (0 : Fin 2) e)))) * a (ix1 e))
                  * val_main_v15 (F := Ideal) ei a (ix1 (node (ei (ix2 (1 : Fin 2) e)))))
                * val_main_v32 (F := Ideal) x W (ix2 (node (ei (ix2 (0 : Fin 2) e))) (0 : Fin 64))
            else 0)
          + ((val_main_v15 (F := Ideal) ei a (ix1 n) * Ideal.ofBits .f32 0x3F800000#32) * val_main_v15 (F := Ideal) ei a (ix1 n))
              * val_main_v32 (F := Ideal) x W (ix2 n (0 : Fin 64))) := by
  unfold val_main_v45
  rw [hostScatterAdd_eq, scatterAdd_rows_apply Cert.ReferenceIdeal.scatter_S100000x64_S3300000x1_S3300000x64_1_0_0_1 rfl rfl rfl rfl]
  refine congrArg₂ (· + ·) (reference_v43_apply _) ?_
  refine (sum_rows_then_iota (E := 3200000) (N := 100000) rfl
    (fun j => (val_main_v44 (F := Ideal) ei (ixP j)).toInt)
    (fun j => val_main_v42 (F := Ideal) x ei a W (ix2 j (0 : Fin 64))) n (fun m => ?_)).trans ?_
  · show (val_main_v44 (F := Ideal) ei (ixP (loopPos m))).toInt = (m.val : Int)
    rw [col44_apply, dst_loop]
    exact toInt_ofNat_small m.val (by have := m.isLt; omega)
  refine congrArg₂ (· + ·) (Finset.sum_congr rfl fun e _ => ?_) ?_
  · show (if (val_main_v44 (F := Ideal) ei (ixP (edgePos e))).toInt = (n.val : Int)
        then val_main_v42 (F := Ideal) x ei a W (ix2 (edgePos e) (0 : Fin 64)) else 0) = _
    rw [col44_apply, dst_edge, reference_message_apply, src_edge, dst_edge, wgt_edge]
  · show val_main_v42 (F := Ideal) x ei a W (ix2 (loopPos n) (0 : Fin 64)) = _
    rw [reference_message_apply, src_loop, dst_loop, wgt_loop, node_ofNat]

/-- The reference's aggregated feature at n before the subtraction: the scattered messages and the bias. -/
theorem reference_v50_apply (n : Fin 100000) :
    val_main_v50 (F := Ideal) x ei a W b (ix1 n)
      = val_main_v45 (F := Ideal) x ei a W (ix2 n (0 : Fin 64)) + b (ix1 (0 : Fin 64)) := by
  rw [val_main_v50_apply, val_main_v49_apply]
  have hI : idx_main_v49 (idx_main_v50 (ix1 n)) = ix2 n (0 : Fin 64) :=
    funext fun d => Fin.ext (by match d with | ⟨0, _⟩ => exact Nat.div_one n.val | ⟨1, _⟩ => rfl)
  rw [hI, val_main_v48_apply, val_main_v47_apply, val_main_v46_apply, Ideal.addf_def]
  exact congrArg (_ + ·) (congrArg b (funext fun d => match d with | ⟨0, _⟩ => rfl))

/-- The kernel's host code at node n, for any transformed feature `h0` and first feature `x0`. -/
theorem kernel_perNode_apply (h0 x0 : FVec Ideal Cert.KernelIdeal.S100000 .f32) (n : Fin 100000) :
    perNode h0 x0 ei a b (ix1 n)
      = (((Ideal.ofBits .f32 0x00000000#32
            + ∑ e : Fin 3200000, if (ei (ix2 (1 : Fin 2) e)).toInt = (n.val : Int) then
                ((val_main_v15 (F := Ideal) ei a (ix1 (node (ei (ix2 (0 : Fin 2) e)))) * h0 (ix1 (node (ei (ix2 (0 : Fin 2) e))))) * a (ix1 e))
                  * val_main_v15 (F := Ideal) ei a (ix1 (node (ei (ix2 (1 : Fin 2) e))))
              else 0)
          + (h0 (ix1 n) * val_main_v15 (F := Ideal) ei a (ix1 n)) * val_main_v15 (F := Ideal) ei a (ix1 n))
        + b (ix1 (0 : Fin 64)))
        - x0 (ix1 n) := by
  unfold perNode
  rw [dis_eq]
  rw [subf_apply, addf_apply, addf_apply, mulf_apply, mulf_apply, kernel_bias_apply]
  rw [hostScatterAdd_eq, scatterAdd_rank1_apply Cert.KernelIdeal.scatter_S100000_S3200000x1_S3200000_n_0_0_1 rfl rfl rfl rfl]
  refine congrArg₂ (· - ·) (congrArg₂ (· + ·) (congrArg₂ (· + ·) (congrArg₂ (· + ·) (kernel_zeros_apply _) (Finset.sum_congr rfl fun e _ => ?_)) rfl) rfl) rfl
  rw [asColumn_apply, dstRow_eq, dst_apply, kernel_message_apply]

/-- One aggregated feature per node. -/
theorem perNode_eq (n : Fin 100000) :
    perNode
        (shapeCast Cert.KernelIdeal.S100000
          (matvecCol x (extractStridedSlice Cert.KernelIdeal.S64x1 ![0, 0] W Cert.KernelIdeal.Facts₀.slices_S64x64_S64x1_0_0))
          Cert.KernelIdeal.Facts₀.shapeCasts_S100000x1_S100000)
        (shapeCast Cert.KernelIdeal.S100000 (firstCol x) Cert.KernelIdeal.Facts₀.shapeCasts_S100000x1_S100000)
        ei a b (ix1 n)
      = val_main_v53 (F := Ideal) x ei a W b (ix1 n) := by
  rw [kernel_perNode_apply, val_main_v53_apply, reference_v50_apply, reference_v45_apply, kernel_x0_apply, Ideal.subf_def]
  simp only [kernel_h0_apply]
  refine congrArg₂ (· - ·) ?_ rfl
  refine (regroup _ _ _ _).trans ?_
  exact congrArg₂ (· + ·) (congrArg₂ (· + ·) rfl (congrArg₂ (· + ·)
    (Finset.sum_congr rfl fun e _ => if_congr Iff.rfl (edge_term _ _ _ _) rfl) (loop_term _ _ _ one_eq))) rfl

/-- The whole result. -/
theorem tail_eq :
    tail (matvecCol x (extractStridedSlice Cert.KernelIdeal.S64x1 ![0, 0] W Cert.KernelIdeal.Facts₀.slices_S64x64_S64x1_0_0))
        (firstCol x) ei a b
      = val_main_v54 (F := Ideal) x ei a W b := by
  unfold tail val_main_v54
  refine congrArg (fun v => shapeCast _ v _) ?_
  funext i
  obtain ⟨n, rfl⟩ : ∃ n : Fin 100000, i = ix1 n := ⟨i 0, eq_ix1 i⟩
  exact perNode_eq x ei a W b n

end Cert.Bridge

end
-- ==== Proof.lean ====
/-
  The certificate of one graph-convolution layer: `out[:, 0] − x[:, 0]` of a GCN layer with self loops, the
  kernel against its reference, over the extended reals.

  The kernel runs one region, a matrix-vector product `x · W[:, 0]` tiled over the nodes (which also copies out
  the column `x[:, 0]`), and then host code: the weighted in-degrees with the self loop's weight added,
  `dis = deg^(-1/2)`, the edges' messages `((dis · h0)[row] · a) · dis[col]` scatter-added at their targets, the self
  loop's message `h0 · dis · dis` and the bias added in closed form. The reference appends the N self loops to the
  edge list, transforms all 64 features, gathers, scales and scatter-adds whole rows, and takes column 0 at the
  end. At the ideal instance the two are one function of the arguments: the degrees agree because a sum may be
  regrouped, and each node's aggregate agrees because the extended reals' product is commutative and associative
  and a scatter by rows acts on each column by itself (Proof/BridgeDeg, BridgeOut, BridgeNode). No finiteness of
  the inputs is used.

  The three frames: the two kernel programs' are their generated frame certificates; the reference's is its run
  read back with the result dropped. The idealization rewrote nothing, so `preserves` is trivial. The kernel's
  value is read off its frame run (Proof/KernelValue); the reference's is its generated run and stages.
-/
import proofs.«406519_j395136991891_3_alg».proof.Defs
import proofs.«406519_j395136991891_3_alg».proof.Proof.Gen.Kernel
import proofs.«406519_j395136991891_3_alg».proof.Proof.Gen.Kernel.Skeleton
import proofs.«406519_j395136991891_3_alg».proof.Proof.Gen.Kernel.Launch
import proofs.«406519_j395136991891_3_alg».proof.Proof.Gen.Kernel.Points
import proofs.«406519_j395136991891_3_alg».proof.Proof.Gen.Kernel.Frame
import proofs.«406519_j395136991891_3_alg».proof.Proof.Gen.KernelIdeal
import proofs.«406519_j395136991891_3_alg».proof.Proof.Gen.KernelIdeal.Skeleton
import proofs.«406519_j395136991891_3_alg».proof.Proof.Gen.KernelIdeal.Launch
import proofs.«406519_j395136991891_3_alg».proof.Proof.Gen.KernelIdeal.Points
import proofs.«406519_j395136991891_3_alg».proof.Proof.Gen.KernelIdeal.Frame
import proofs.«406519_j395136991891_3_alg».proof.Proof.Gen.ReferenceIdeal
import proofs.«406519_j395136991891_3_alg».proof.Proof.Gen.Pre_finite_inputs
import proofs.«406519_j395136991891_3_alg».proof.Proof.Gen.ReferenceIdeal.Run
import proofs.«406519_j395136991891_3_alg».proof.Proof.Gen.ReferenceIdeal.Read
import proofs.«406519_j395136991891_3_alg».proof.Proof.KernelValue
import proofs.«406519_j395136991891_3_alg».proof.Proof.BridgeNode
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs run from memories agreeing on the arguments and end with the same result: the kernel's host tail of
    what its region leaves, which is the reference's last stage of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2]
  exact (Cert.Bridge.tail_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
